-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_v19) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x4096x128 : Shape := ⟨4, ![4, 16, 4096, 128]⟩
abbrev S4x16x128x128 : Shape := ⟨4, ![4, 16, 128, 128]⟩
abbrev S4x16x128x1 : Shape := ⟨4, ![4, 16, 128, 1]⟩
abbrev S_ : Shape := ⟨0, ![]⟩

class Facts : Prop where
  bcast_S_S4x16x4096x128 : S_.BroadcastsInDim S4x16x4096x128 (![] : Fin 0 → Fin S4x16x4096x128.rank)
  reducesTo_S4x16x4096x128_S_d0_1_2_3 : S4x16x4096x128.ReducesTo [0, 1, 2, 3] S_
  h_S_ : 0 < S_.numel
  bcast_S_S4x16x128x128 : S_.BroadcastsInDim S4x16x128x128 (![] : Fin 0 → Fin S4x16x128x128.rank)
  reducesTo_S4x16x128x128_S_d0_1_2_3 : S4x16x128x128.ReducesTo [0, 1, 2, 3] S_
  bcast_S_S4x16x128x1 : S_.BroadcastsInDim S4x16x128x1 (![] : Fin 0 → Fin S4x16x128x1.rank)
  reducesTo_S4x16x128x1_S_d0_1_2_3 : S4x16x128x1.ReducesTo [0, 1, 2, 3] S_

variable [Facts]

def fn_part1 {F : FTy → Type} [FloatOps F] (main_arg4 : FVec F S4x16x128x1 .f32) (main_v13 : IVec S_ 1) (main_v16 : IVec S4x16x128x128 1) : IVec S_ 1 :=
  let main_c_5 : IVec S_ 1 := constantI S_ 1 1#1
  let main_v17 : IVec S_ 1 := (fun x v => Host.reduce IntOp.andi x v reducesTo_S4x16x128x128_S_d0_1_2_3 h_S_) main_v16 main_c_5
  let main_v18 : IVec S_ 1 := andi main_v13 main_v17
  let main_v19 : FVec F S4x16x128x1 .f32 := Host.absf main_arg4
  let main_cst_6 : FVec F S_ .f32 := constant S_ .f32 0x7F800000#32
  let main_v20 : FVec F S4x16x128x1 .f32 := broadcastInDim S4x16x128x1 ![] bcast_S_S4x16x128x1 main_cst_6
  let main_v21 : IVec S4x16x128x1 1 := cmpf .olt main_v19 main_v20
  let main_c_7 : IVec S_ 1 := constantI S_ 1 1#1
  let main_v22 : IVec S_ 1 := (fun x v => Host.reduce IntOp.andi x v reducesTo_S4x16x128x1_S_d0_1_2_3 h_S_) main_v21 main_c_7
  let main_v23 : IVec S_ 1 := andi main_v18 main_v22
  main_v23

def fn {F : FTy → Type} [FloatOps F] (main_arg0 : FVec F S4x16x4096x128 .f32) (main_arg1 : FVec F S4x16x4096x128 .f32) (main_arg2 : FVec F S4x16x4096x128 .f32) (main_arg3 : FVec F S4x16x128x128 .f32) (main_arg4 : FVec F S4x16x128x1 .f32) : IVec S_ 1 :=
  let main_v0 : FVec F S4x16x4096x128 .f32 := Host.absf main_arg0
  let main_cst : FVec F S_ .f32 := constant S_ .f32 0x7F800000#32
  let main_v1 : FVec F S4x16x4096x128 .f32 := broadcastInDim S4x16x4096x128 ![] bcast_S_S4x16x4096x128 main_cst
  let main_v2 : IVec S4x16x4096x128 1 := cmpf .olt main_v0 main_v1
  let main_c : IVec S_ 1 := constantI S_ 1 1#1
  let main_v3 : IVec S_ 1 := (fun x v => Host.reduce IntOp.andi x v reducesTo_S4x16x4096x128_S_d0_1_2_3 h_S_) main_v2 main_c
  let main_v4 : FVec F S4x16x4096x128 .f32 := Host.absf main_arg1
  let main_cst_0 : FVec F S_ .f32 := constant S_ .f32 0x7F800000#32
  let main_v5 : FVec F S4x16x4096x128 .f32 := broadcastInDim S4x16x4096x128 ![] bcast_S_S4x16x4096x128 main_cst_0
  let main_v6 : IVec S4x16x4096x128 1 := cmpf .olt main_v4 main_v5
  let main_c_1 : IVec S_ 1 := constantI S_ 1 1#1
  let main_v7 : IVec S_ 1 := (fun x v => Host.reduce IntOp.andi x v reducesTo_S4x16x4096x128_S_d0_1_2_3 h_S_) main_v6 main_c_1
  let main_v8 : IVec S_ 1 := andi main_v3 main_v7
  let main_v9 : FVec F S4x16x4096x128 .f32 := Host.absf main_arg2
  let main_cst_2 : FVec F S_ .f32 := constant S_ .f32 0x7F800000#32
  let main_v10 : FVec F S4x16x4096x128 .f32 := broadcastInDim S4x16x4096x128 ![] bcast_S_S4x16x4096x128 main_cst_2
  let main_v11 : IVec S4x16x4096x128 1 := cmpf .olt main_v9 main_v10
  let main_c_3 : IVec S_ 1 := constantI S_ 1 1#1
  let main_v12 : IVec S_ 1 := (fun x v => Host.reduce IntOp.andi x v reducesTo_S4x16x4096x128_S_d0_1_2_3 h_S_) main_v11 main_c_3
  let main_v13 : IVec S_ 1 := andi main_v8 main_v12
  let main_v14 : FVec F S4x16x128x128 .f32 := Host.absf main_arg3
  let main_cst_4 : FVec F S_ .f32 := constant S_ .f32 0x7F800000#32
  let main_v15 : FVec F S4x16x128x128 .f32 := broadcastInDim S4x16x128x128 ![] bcast_S_S4x16x128x128 main_cst_4
  let main_v16 : IVec S4x16x128x128 1 := cmpf .olt main_v14 main_v15
  fn_part1 (F := F) main_arg4 main_v13 main_v16
-- ==== Kernel.lean ====
abbrev S4x16x4096x128 : Shape := ⟨4, ![4, 16, 4096, 128]⟩
abbrev S4x16x128x128 : Shape := ⟨4, ![4, 16, 128, 128]⟩
abbrev S4x16x128x1 : Shape := ⟨4, ![4, 16, 128, 1]⟩
abbrev S64x4096x128 : Shape := ⟨3, ![64, 4096, 128]⟩
abbrev S64x128x128 : Shape := ⟨3, ![64, 128, 128]⟩
abbrev S64x128x1 : Shape := ⟨3, ![64, 128, 1]⟩
abbrev S1x1024x128 : Shape := ⟨3, ![1, 1024, 128]⟩
abbrev S1x128x128 : Shape := ⟨3, ![1, 128, 128]⟩
abbrev S1x128x1 : Shape := ⟨3, ![1, 128, 1]⟩
abbrev S128x128 : Shape := ⟨2, ![128, 128]⟩
abbrev S128x1 : Shape := ⟨2, ![128, 1]⟩
abbrev S1024x128 : Shape := ⟨2, ![1024, 128]⟩
abbrev S1024x1 : Shape := ⟨2, ![1024, 1]⟩
abbrev S128x1024 : Shape := ⟨2, ![128, 1024]⟩

abbrev nBuf : Space → Nat
  | .hbm => 16
  | .vmem => 22
  | .smem => 0
  | _ => 0

abbrev bufTy : (tb : Table) → Fin (tcTables nBuf tb) → BufTy
  | .hbm, ⟨0, _⟩ => ⟨S4x16x4096x128, .f32⟩
  | .hbm, ⟨1, _⟩ => ⟨S4x16x4096x128, .f32⟩
  | .hbm, ⟨2, _⟩ => ⟨S4x16x4096x128, .f32⟩
  | .hbm, ⟨3, _⟩ => ⟨S4x16x128x128, .f32⟩
  | .hbm, ⟨4, _⟩ => ⟨S4x16x128x1, .f32⟩
  | .hbm, ⟨5, _⟩ => ⟨S64x4096x128, .f32⟩
  | .hbm, ⟨6, _⟩ => ⟨S64x4096x128, .f32⟩
  | .hbm, ⟨7, _⟩ => ⟨S64x4096x128, .f32⟩
  | .hbm, ⟨8, _⟩ => ⟨S64x128x128, .f32⟩
  | .hbm, ⟨9, _⟩ => ⟨S64x128x1, .f32⟩
  | .hbm, ⟨10, _⟩ => ⟨S64x128x128, .f32⟩
  | .hbm, ⟨11, _⟩ => ⟨S64x128x1, .f32⟩
  | .hbm, ⟨12, _⟩ => ⟨S64x4096x128, .f32⟩
  | .hbm, ⟨13, _⟩ => ⟨S4x16x4096x128, .f32⟩
  | .hbm, ⟨14, _⟩ => ⟨S4x16x128x128, .f32⟩
  | .hbm, ⟨15, _⟩ => ⟨S4x16x128x1, .f32⟩
  | .local _ .vmem, ⟨0, _⟩ => ⟨S1x1024x128, .f32⟩
  | .local _ .vmem, ⟨1, _⟩ => ⟨S1x1024x128, .f32⟩
  | .local _ .vmem, ⟨2, _⟩ => ⟨S1x1024x128, .f32⟩
  | .local _ .vmem, ⟨3, _⟩ => ⟨S1x1024x128, .f32⟩
  | .local _ .vmem, ⟨4, _⟩ => ⟨S1x128x128, .f32⟩
  | .local _ .vmem, ⟨5, _⟩ => ⟨S1x128x128, .f32⟩
  | .local _ .vmem, ⟨6, _⟩ => ⟨S1x128x1, .f32⟩
  | .local _ .vmem, ⟨7, _⟩ => ⟨S1x128x1, .f32⟩
  | .local _ .vmem, ⟨8, _⟩ => ⟨S1x128x128, .f32⟩
  | .local _ .vmem, ⟨9, _⟩ => ⟨S1x128x128, .f32⟩
  | .local _ .vmem, ⟨10, _⟩ => ⟨S1x128x1, .f32⟩
  | .local _ .vmem, ⟨11, _⟩ => ⟨S1x128x1, .f32⟩
  | .local _ .vmem, ⟨12, _⟩ => ⟨S128x128, .f32⟩
  | .local _ .vmem, ⟨13, _⟩ => ⟨S128x1, .f32⟩
  | .local _ .vmem, ⟨14, _⟩ => ⟨S1x1024x128, .f32⟩
  | .local _ .vmem, ⟨15, _⟩ => ⟨S1x1024x128, .f32⟩
  | .local _ .vmem, ⟨16, _⟩ => ⟨S1x128x128, .f32⟩
  | .local _ .vmem, ⟨17, _⟩ => ⟨S1x128x128, .f32⟩
  | .local _ .vmem, ⟨18, _⟩ => ⟨S1x128x1, .f32⟩
  | .local _ .vmem, ⟨19, _⟩ => ⟨S1x128x1, .f32⟩
  | .local _ .vmem, ⟨20, _⟩ => ⟨S1x1024x128, .f32⟩
  | .local _ .vmem, ⟨21, _⟩ => ⟨S1x1024x128, .f32⟩
  | _, _ => ⟨S4x16x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨2, ![64, 4], ![false, false]⟩

def k0_cond2 (i : grid0.Coords) : BitVec 1 :=
  let arg1 : BitVec 32 := BitVec.ofNat 32 (i 1).val
  let c3_i32 : BitVec 32 := 3#32
  let v40 : BitVec 1 := Scalar.cmpi .eq arg1 c3_i32
  let v41 : BitVec 32 := Scalar.extui v40
  let c0_i32_28 : BitVec 32 := 0#32
  let v42 : BitVec 1 := Scalar.cmpi .ne v41 c0_i32_28
  v42

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![64, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x128x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S4x16x4096x128_S64x4096x128 : S4x16x4096x128.ShapeCasts S64x4096x128
  shapeCasts_S4x16x128x128_S64x128x128 : S4x16x128x128.ShapeCasts S64x128x128
  shapeCasts_S4x16x128x1_S64x128x1 : S4x16x128x1.ShapeCasts S64x128x1
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128x1_S1x128x1_0_0_0 : ∀ a, (![0, 0, 0] : Fin 3 → Nat) a + S1x128x1.size a ≤ S1x128x1.size a
  h_S1x128x1 : 0 < S1x128x1.numel
  shapeCasts_S1x128x1_S128x1 : S1x128x1.ShapeCasts S128x1
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  broadcasts_S1024x1_S1024x128 : S1024x1.Broadcasts S1024x128
  transposes_S1024x128_p1_0_S128x1024 : S1024x128.Transposes [1, 0] S128x1024
  shapeCasts_S128x128_S1x128x128 : S128x128.ShapeCasts S1x128x128
  shapeCasts_S128x1_S1x128x1 : S128x1.ShapeCasts S1x128x1
  shapeCasts_S1024x128_S1x1024x128 : S1024x128.ShapeCasts S1x1024x128
  shapeCasts_S64x4096x128_S4x16x4096x128 : S64x4096x128.ShapeCasts S4x16x4096x128
  shapeCasts_S64x128x128_S4x16x128x128 : S64x128x128.ShapeCasts S4x16x128x128
  shapeCasts_S64x128x1_S4x16x128x1 : S64x128x1.ShapeCasts S4x16x128x1
  dot_S1024x128_S128x128_S1024x128_1_0_0_1_n_n_wf : DotDims.WF S1024x128 S128x128 S1024x128 [1] [0] [0] [1] [] []
  dot_S1024x128_S128x1_S1024x1_1_0_0_1_n_n_wf : DotDims.WF S1024x128 S128x1 S1024x1 [1] [0] [0] [1] [] []
  dot_S128x1024_S1024x128_S128x128_1_0_0_1_n_n_wf : DotDims.WF S128x1024 S1024x128 S128x128 [1] [0] [0] [1] [] []
  dot_S128x1024_S1024x1_S128x1_1_0_0_1_n_n_wf : DotDims.WF S128x1024 S1024x1 S128x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S64x4096x128.size a
  hwx0_0 : ∀ i : grid0.Coords, EltTy.bits .f32 = 32 ∨ (Rect.block (s := S64x4096x128) S1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x128.size a ≤ S64x4096x128.size a
  hwx0_1 : ∀ i : grid0.Coords, EltTy.bits .f32 = 32 ∨ (Rect.block (s := S64x4096x128) S1x1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x128.size a ≤ S64x128x128.size a
  hwx0_2 : ∀ i : grid0.Coords, EltTy.bits .f32 = 32 ∨ (Rect.block (s := S64x128x128) S1x128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x1.size a ≤ S64x128x1.size a
  hwx0_3 : ∀ i : grid0.Coords, EltTy.bits .f32 = 32 ∨ (Rect.block (s := S64x128x1) S1x128x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x128.size a ≤ S64x128x128.size a
  hwx0_4 : ∀ i : grid0.Coords, EltTy.bits .f32 = 32 ∨ (Rect.block (s := S64x128x128) S1x128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128x1.size a ≤ S64x128x1.size a
  hwx0_5 : ∀ i : grid0.Coords, EltTy.bits .f32 = 32 ∨ (Rect.block (s := S64x128x1) S1x128x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x128.size a ≤ S64x4096x128.size a
  hwx1_0 : ∀ i : grid1.Coords, EltTy.bits .f32 = 32 ∨ (Rect.block (s := S64x4096x128) S1x1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x128.size a ≤ S64x128x128.size a
  hwx1_1 : ∀ i : grid1.Coords, EltTy.bits .f32 = 32 ∨ (Rect.block (s := S64x128x128) S1x128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128x1.size a ≤ S64x128x1.size a
  hwx1_2 : ∀ i : grid1.Coords, EltTy.bits .f32 = 32 ∨ (Rect.block (s := S64x128x1) S1x128x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x128.size a ≤ S64x4096x128.size a
  hwx1_3 : ∀ i : grid1.Coords, EltTy.bits .f32 = 32 ∨ (Rect.block (s := S64x4096x128) S1x1024x128.size (cc1_transform_3 i) (hinb1_3 i)).WholeWords (EltTy.packing .f32)

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x1_S1024x1_1_0_0_1_n_n : DotDims S1024x128 S128x1 S1024x1 where
  lhsContracting := [1]
  rhsContracting := [0]
  lhsNonContracting := [0]
  rhsNonContracting := [1]
  lhsBatch := []
  rhsBatch := []
  wf := dot_S1024x128_S128x1_S1024x1_1_0_0_1_n_n_wf
def dot_S128x1024_S1024x128_S128x128_1_0_0_1_n_n : DotDims S128x1024 S1024x128 S128x128 where
  lhsContracting := [1]
  rhsContracting := [0]
  lhsNonContracting := [0]
  rhsNonContracting := [1]
  lhsBatch := []
  rhsBatch := []
  wf := dot_S128x1024_S1024x128_S128x128_1_0_0_1_n_n_wf
def dot_S128x1024_S1024x1_S128x1_1_0_0_1_n_n : DotDims S128x1024 S1024x1 S128x1 where
  lhsContracting := [1]
  rhsContracting := [0]
  lhsNonContracting := [0]
  rhsNonContracting := [1]
  lhsBatch := []
  rhsBatch := []
  wf := dot_S128x1024_S1024x1_S128x1_1_0_0_1_n_n_wf

abbrev win0_0 : Pipeline.Window sig grid0 :=
  Pipeline.Window.ofSpec (Memref.whole main_v1) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x128x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_0) S1x128x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_1) S1x128x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v0) S1x1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5_0) S1x128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5_1) S1x128x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x16x4096x128 : Shape := ⟨4, ![4, 16, 4096, 128]⟩
abbrev S4x16x128x128 : Shape := ⟨4, ![4, 16, 128, 128]⟩
abbrev S4x16x128x1 : Shape := ⟨4, ![4, 16, 128, 1]⟩
abbrev S_ : Shape := ⟨0, ![]⟩
abbrev S4x16x4096x1 : Shape := ⟨4, ![4, 16, 4096, 1]⟩
abbrev S4x16x128 : Shape := ⟨3, ![4, 16, 128]⟩

abbrev nBuf : Space → Nat
  | .hbm => 48
  | .vmem => 0
  | .smem => 0
  | _ => 0

abbrev bufTy : (tb : Table) → Fin (tcTables nBuf tb) → BufTy
  | .hbm, ⟨0, _⟩ => ⟨S4x16x4096x128, .f32⟩
  | .hbm, ⟨1, _⟩ => ⟨S4x16x4096x128, .f32⟩
  | .hbm, ⟨2, _⟩ => ⟨S4x16x4096x128, .f32⟩
  | .hbm, ⟨3, _⟩ => ⟨S4x16x128x128, .f32⟩
  | .hbm, ⟨4, _⟩ => ⟨S4x16x128x1, .f32⟩
  | .hbm, ⟨5, _⟩ => ⟨S_, .f32⟩
  | .hbm, ⟨6, _⟩ => ⟨S4x16x4096x128, .f32⟩
  | .hbm, ⟨7, _⟩ => ⟨S4x16x4096x128, .i1⟩
  | .hbm, ⟨8, _⟩ => ⟨S_, .f32⟩
  | .hbm, ⟨9, _⟩ => ⟨S4x16x4096x128, .f32⟩
  | .hbm, ⟨10, _⟩ => ⟨S4x16x4096x128, .f32⟩
  | .hbm, ⟨11, _⟩ => ⟨S_, .f32⟩
  | .hbm, ⟨12, _⟩ => ⟨S4x16x4096x128, .f32⟩
  | .hbm, ⟨13, _⟩ => ⟨S4x16x4096x128, .f32⟩
  | .hbm, ⟨14, _⟩ => ⟨S4x16x4096x128, .f32⟩
  | .hbm, ⟨15, _⟩ => ⟨S4x16x4096x128, .f32⟩
  | .hbm, ⟨16, _⟩ => ⟨S4x16x4096x128, .f32⟩
  | .hbm, ⟨17, _⟩ => ⟨S4x16x4096x1, .f32⟩
  | .hbm, ⟨18, _⟩ => ⟨S_, .f32⟩
  | .hbm, ⟨19, _⟩ => ⟨S4x16x4096x1, .f32⟩
  | .hbm, ⟨20, _⟩ => ⟨S4x16x4096x1, .f32⟩
  | .hbm, ⟨21, _⟩ => ⟨S4x16x4096x128, .f32⟩
  | .hbm, ⟨22, _⟩ => ⟨S4x16x4096x128, .f32⟩
  | .hbm, ⟨23, _⟩ => ⟨S4x16x4096x128, .f32⟩
  | .hbm, ⟨24, _⟩ => ⟨S4x16x128x128, .f32⟩
  | .hbm, ⟨25, _⟩ => ⟨S4x16x128x128, .f32⟩
  | .hbm, ⟨26, _⟩ => ⟨S_, .f32⟩
  | .hbm, ⟨27, _⟩ => ⟨S4x16x128, .f32⟩
  | .hbm, ⟨28, _⟩ => ⟨S4x16x128x1, .f32⟩
  | .hbm, ⟨29, _⟩ => ⟨S4x16x128x1, .f32⟩
  | .hbm, ⟨30, _⟩ => ⟨S_, .f32⟩
  | .hbm, ⟨31, _⟩ => ⟨S4x16x4096x128, .f32⟩
  | .hbm, ⟨32, _⟩ => ⟨S4x16x4096x128, .i1⟩
  | .hbm, ⟨33, _⟩ => ⟨S_, .f32⟩
  | .hbm, ⟨34, _⟩ => ⟨S4x16x4096x128, .f32⟩
  | .hbm, ⟨35, _⟩ => ⟨S4x16x4096x128, .f32⟩
  | .hbm, ⟨36, _⟩ => ⟨S_, .f32⟩
  | .hbm, ⟨37, _⟩ => ⟨S4x16x4096x128, .f32⟩
  | .hbm, ⟨38, _⟩ => ⟨S4x16x4096x128, .f32⟩
  | .hbm, ⟨39, _⟩ => ⟨S4x16x4096x128, .f32⟩
  | .hbm, ⟨40, _⟩ => ⟨S4x16x4096x128, .f32⟩
  | .hbm, ⟨41, _⟩ => ⟨S4x16x4096x128, .f32⟩
  | .hbm, ⟨42, _⟩ => ⟨S4x16x4096x1, .f32⟩
  | .hbm, ⟨43, _⟩ => ⟨S_, .f32⟩
  | .hbm, ⟨44, _⟩ => ⟨S4x16x4096x1, .f32⟩
  | .hbm, ⟨45, _⟩ => ⟨S4x16x4096x1, .f32⟩
  | .hbm, ⟨46, _⟩ => ⟨S4x16x4096x128, .f32⟩
  | .hbm, ⟨47, _⟩ => ⟨S4x16x4096x128, .f32⟩
  | _, _ => ⟨S4x16x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]

class Facts₀ : Prop where
  bcast_S_S4x16x4096x128 : S_.BroadcastsInDim S4x16x4096x128 (![] : Fin 0 → Fin S4x16x4096x128.rank)
  bcast_S_S4x16x4096x1 : S_.BroadcastsInDim S4x16x4096x1 (![] : Fin 0 → Fin S4x16x4096x1.rank)
  bcast_S4x16x4096x1_S4x16x4096x128_0_1_2_3 : S4x16x4096x1.BroadcastsInDim S4x16x4096x128 (![0, 1, 2, 3] : Fin 4 → Fin S4x16x4096x128.rank)
  reducesTo_S4x16x4096x128_S4x16x128_d2 : S4x16x4096x128.ReducesTo [2] S4x16x128
  h_S_ : 0 < S_.numel
  bcast_S4x16x128_S4x16x128x1_0_1_2 : S4x16x128.BroadcastsInDim S4x16x128x1 (![0, 1, 2] : Fin 3 → Fin S4x16x128x1.rank)
  dot_S4x16x4096x128_S4x16x128x128_S4x16x4096x128_3_2_2_3_01_01_wf : DotDims.WF S4x16x4096x128 S4x16x128x128 S4x16x4096x128 [3] [2] [2] [3] [0, 1] [0, 1]
  dot_S4x16x4096x128_S4x16x128x1_S4x16x4096x1_3_2_2_3_01_01_wf : DotDims.WF S4x16x4096x128 S4x16x128x1 S4x16x4096x1 [3] [2] [2] [3] [0, 1] [0, 1]
  dot_S4x16x4096x128_S4x16x4096x128_S4x16x128x128_2_2_3_3_01_01_wf : DotDims.WF S4x16x4096x128 S4x16x4096x128 S4x16x128x128 [2] [2] [3] [3] [0, 1] [0, 1]

variable [Facts₀]

def dot_S4x16x4096x128_S4x16x128x128_S4x16x4096x128_3_2_2_3_01_01 : DotDims S4x16x4096x128 S4x16x128x128 S4x16x4096x128 where
  lhsContracting := [3]
  rhsContracting := [2]
  lhsNonContracting := [2]
  rhsNonContracting := [3]
  lhsBatch := [0, 1]
  rhsBatch := [0, 1]
  wf := dot_S4x16x4096x128_S4x16x128x128_S4x16x4096x128_3_2_2_3_01_01_wf
def dot_S4x16x4096x128_S4x16x128x1_S4x16x4096x1_3_2_2_3_01_01 : DotDims S4x16x4096x128 S4x16x128x1 S4x16x4096x1 where
  lhsContracting := [3]
  rhsContracting := [2]
  lhsNonContracting := [2]
  rhsNonContracting := [3]
  lhsBatch := [0, 1]
  rhsBatch := [0, 1]
  wf := dot_S4x16x4096x128_S4x16x128x1_S4x16x4096x1_3_2_2_3_01_01_wf
def dot_S4x16x4096x128_S4x16x4096x128_S4x16x128x128_2_2_3_3_01_01 : DotDims S4x16x4096x128 S4x16x4096x128 S4x16x128x128 where
  lhsContracting := [2]
  rhsContracting := [2]
  lhsNonContracting := [3]
  rhsNonContracting := [3]
  lhsBatch := [0, 1]
  rhsBatch := [0, 1]
  wf := dot_S4x16x4096x128_S4x16x4096x128_S4x16x128x128_2_2_3_3_01_01_wf

class Facts : Prop extends Facts₀ where

variable [Facts]
-- ==== Proof.KI.Shared.lean ====
/- The update kernel runs on a grid of 64 × 4 points: point t works on head t / 4 and on rows
   1024·(t % 4) … 1024·(t % 4) + 1023 of that head's keys and values. Its two scratch buffers carry the running memory
   matrix and the running normaliser from one point of a head to the next: they are reset from the head's M and z
   where t % 4 = 0, added to at every point, and copied to the two output windows where t % 4 = 3. The retrieve
   kernel has no state: every point reads its query rows and the head's new M and z and writes its output rows.

   This module fixes what both kernels' proofs are stated over, for ANY contents `V` of the buffers at a region's
   entry: a window's block at a point as a function of `V`; that an input window's staging buffer holds that
   block at every point, whether the pipeline fetched it there or kept it from the point before (M and z are
   fetched only where the head changes); the two branch conditions of the update kernel as residues of t modulo 4;
   where its output windows are idle; and the class invariant with the two scratch buffers named. -/
import proofs.«172453_j88390426951900_1_alg».proof.Proof.Gen.KernelIdeal.Launch
import proofs.«172453_j88390426951900_1_alg».proof.Proof.Gen.KernelIdeal.Skeleton
import proofs.«172453_j88390426951900_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
variable (V : (c : Dev nD) → (b : Ref sig .tc) → Buf (Elt F) ((c : Thread nD τ).loc b))

/-! ## The update kernel's windows -/

/-- Window `w`'s block at point `t`, read off its array as the update region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window of the update kernel holds its block at every point, fetched there or kept: an unfetched
    point has the block index of the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The retrieve kernel's windows -/

/-- Window `w`'s block at point `t`, read off its array as the retrieve region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Entry

/-! ## The update kernel's two branches, as residues of the point modulo 4 -/

/-- "This is the head's first tile": the reset of the two accumulators is taken. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "This is the head's last tile": the accumulators are copied to the output windows. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the update kernel's windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Off a head's last tile the two output windows are idle and not written back; on it they are live. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel

/-! ## The memrefs the update kernel is called with -/

abbrev ms0_0 (t : Fin cfg0.N) : Memref sig .tc .vmem S1x1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128x1 .f32 := win0_5.stage (cfg0.slots t 5)
abbrev hs0_5 (t : Fin cfg0.N) : (ms0_5 t).IsWhole := hstage0_5 ((cfg0.slots t 5).cast nbuf0_5)
/-- The running memory matrix and the running normaliser: whole scoped buffers of the kernel's own. -/
abbrev scM0_0 : Memref sig .tc .vmem S128x128 .f32 := Memref.whole cc0_scratch0
abbrev scM0_1 : Memref sig .tc .vmem S128x1 .f32 := Memref.whole cc0_scratch1
abbrev VS0_0 : View sig .tc .vmem S128x128 .f32 := scM0_0.view
abbrev VS0_1 : View sig .tc .vmem S128x1 .f32 := scM0_1.view
/-- One staging buffer of each output window, through which its contents are stated. -/
abbrev VO0_4 : View sig .tc .vmem S1x128x128 .f32 := (Memref.whole cc0_stg4_0 : Memref sig .tc .vmem S1x128x128 .f32).view
abbrev VO0_5 : View sig .tc .vmem S1x128x1 .f32 := (Memref.whole cc0_stg5_0 : Memref sig .tc .vmem S1x128x1 .f32).view

/-- The scoped buffers of the core that the update kernel never touches: the retrieve kernel's staging buffers. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class invariant of the update region with its two scratch buffers named as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 c) ∗ (∃ r, prngReg c r)) := by
  unfold Pipeline.ΦA rest0; rw [scopedRest0_eq]; simp only [scM0_0, scM0_1, owns_whole]; try rfl

end Cert.KernelIdeal.Hand

end
-- ==== Proof.KI.RunB.lean ====
/- A middle tile of a head (neither the first nor the last): the update kernel resets nothing and copies nothing
   out. It reads the key and value rows and the head's M and z, adds this tile's contribution to the running memory
   matrix and to the running normaliser, and leaves both output windows untouched. -/
import proofs.«172453_j88390426951900_1_alg».proof.Proof.KI.Shared
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two scratch buffers on a middle tile, with the proof that from the
    inputs at their contents, the idle output buffers at anything (handed back untouched) and the scratch buffers at
    what the tile before left, the body runs to the continuation with the inputs as they were and the scratch buffers
    with those pieces written. -/
noncomputable def kernelRun0_B (c : Dev nD) (i : grid0.Coords) (arg2 : Memref sig .tc .vmem S1x1024x128 .f32) (harg2 : arg2.IsWhole) (arg3 : Memref sig .tc .vmem S1x1024x128 .f32) (harg3 : arg3.IsWhole) (arg4 : Memref sig .tc .vmem S1x128x128 .f32) (harg4 : arg4.IsWhole) (arg5 : Memref sig .tc .vmem S1x128x1 .f32) (harg5 : arg5.IsWhole) (arg6 : Memref sig .tc .vmem S1x128x128 .f32) (harg6 : arg6.IsWhole) (arg7 : Memref sig .tc .vmem S1x128x1 .f32) (harg7 : arg7.IsWhole) (arg8 : Memref sig .tc .vmem S128x128 .f32) (harg8 : arg8.IsWhole) (arg9 : Memref sig .tc .vmem S128x1 .f32) (harg9 : arg9.IsWhole) (hc0 : ¬cond0_0 i) (hc1 : ¬cond0_1 i)
    (x0 : Vec F S1x1024x128 .f32) (x1 : Vec F S1x1024x128 .f32) (x2 : Vec F S1x128x128 .f32) (x3 : Vec F S1x128x1 .f32) (xs0 : Vec F S128x128 .f32) (xs1 : Vec F S128x1 .f32) :
    Σ' (LS0 : List (View.Piece (Elt F) S128x128 .f32)), { LS1 : List (View.Piece (Elt F) S128x1 .f32) //
      ∀ (xi4 : Vec F S1x128x128 .f32) (xi5 : Vec F S1x128x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__update_kernel i arg2 harg2 arg3 harg3 arg4 harg4 arg5 harg5 arg6 harg6 arg7 harg7 arg8 harg8 arg9 harg9) K } := by
  refine ⟨?_, ?_, fun xi4 xi5 E K => ?run⟩
  case run =>
    simp only [cc0__update_kernel_eq_skeleton]; unfold cc0__update_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.KernelIdeal.Hand

end
-- ==== Proof.KI.RunA.lean ====
/- The first tile of a head: the update kernel first resets the running memory matrix to the head's M and the
   running normaliser to the head's z, then adds this tile's contribution to each. Whatever the scratch buffers
   held before is overwritten. Nothing is copied out and the output windows stay untouched. -/
import proofs.«172453_j88390426951900_1_alg».proof.Proof.KI.RunB
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two scratch buffers on a head's first tile (the reset, then the
    update), with the proof that from the inputs at their contents, the idle output buffers at anything (handed back
    untouched) and the scratch buffers at anything, the body runs to the continuation with the inputs as they were
    and the scratch buffers with those pieces written. -/
noncomputable def kernelRun0_A (c : Dev nD) (i : grid0.Coords) (arg2 : Memref sig .tc .vmem S1x1024x128 .f32) (harg2 : arg2.IsWhole) (arg3 : Memref sig .tc .vmem S1x1024x128 .f32) (harg3 : arg3.IsWhole) (arg4 : Memref sig .tc .vmem S1x128x128 .f32) (harg4 : arg4.IsWhole) (arg5 : Memref sig .tc .vmem S1x128x1 .f32) (harg5 : arg5.IsWhole) (arg6 : Memref sig .tc .vmem S1x128x128 .f32) (harg6 : arg6.IsWhole) (arg7 : Memref sig .tc .vmem S1x128x1 .f32) (harg7 : arg7.IsWhole) (arg8 : Memref sig .tc .vmem S128x128 .f32) (harg8 : arg8.IsWhole) (arg9 : Memref sig .tc .vmem S128x1 .f32) (harg9 : arg9.IsWhole) (hc0 : cond0_0 i) (hc1 : ¬cond0_1 i)
    (x0 : Vec F S1x1024x128 .f32) (x1 : Vec F S1x1024x128 .f32) (x2 : Vec F S1x128x128 .f32) (x3 : Vec F S1x128x1 .f32) :
    Σ' (LS0 : List (View.Piece (Elt F) S128x128 .f32)), { LS1 : List (View.Piece (Elt F) S128x1 .f32) //
      ∀ (xi4 : Vec F S1x128x128 .f32) (xi5 : Vec F S1x128x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__update_kernel i arg2 harg2 arg3 harg3 arg4 harg4 arg5 harg5 arg6 harg6 arg7 harg7 arg8 harg8 arg9 harg9) K } := by
  refine ⟨?_, ?_, fun xi4 xi5 E K => ?run⟩
  case run =>
    simp only [cc0__update_kernel_eq_skeleton]; unfold cc0__update_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.KernelIdeal.Hand

end
-- ==== Proof.KI.RunC.lean ====
/- The last tile of a head: the update kernel adds this tile's contribution to the running memory matrix and to
   the running normaliser, as on a middle tile, and then copies both into the output windows' buffers, from where
   the pipeline writes them back as the head's new M and new z. -/
import proofs.«172453_j88390426951900_1_alg».proof.Proof.KI.RunA
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two output buffers and the two scratch buffers on a head's last
    tile, with the proof that from the inputs at their contents, the output buffers at anything and the scratch
    buffers at what the tile before left, the body runs to the continuation with the inputs as they were and all
    four buffers with their pieces written. -/
noncomputable def kernelRun0_C (c : Dev nD) (i : grid0.Coords) (arg2 : Memref sig .tc .vmem S1x1024x128 .f32) (harg2 : arg2.IsWhole) (arg3 : Memref sig .tc .vmem S1x1024x128 .f32) (harg3 : arg3.IsWhole) (arg4 : Memref sig .tc .vmem S1x128x128 .f32) (harg4 : arg4.IsWhole) (arg5 : Memref sig .tc .vmem S1x128x1 .f32) (harg5 : arg5.IsWhole) (arg6 : Memref sig .tc .vmem S1x128x128 .f32) (harg6 : arg6.IsWhole) (arg7 : Memref sig .tc .vmem S1x128x1 .f32) (harg7 : arg7.IsWhole) (arg8 : Memref sig .tc .vmem S128x128 .f32) (harg8 : arg8.IsWhole) (arg9 : Memref sig .tc .vmem S128x1 .f32) (harg9 : arg9.IsWhole) (hc0 : ¬cond0_0 i) (hc1 : cond0_1 i)
    (x0 : Vec F S1x1024x128 .f32) (x1 : Vec F S1x1024x128 .f32) (x2 : Vec F S1x128x128 .f32) (x3 : Vec F S1x128x1 .f32) (xs0 : Vec F S128x128 .f32) (xs1 : Vec F S128x1 .f32) :
    Σ' (L4 : List (View.Piece (Elt F) S1x128x128 .f32)) (L5 : List (View.Piece (Elt F) S1x128x1 .f32)) (LS0 : List (View.Piece (Elt F) S128x128 .f32)), { LS1 : List (View.Piece (Elt F) S128x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__update_kernel i arg2 harg2 arg3 harg3 arg4 harg4 arg5 harg5 arg6 harg6 arg7 harg7 arg8 harg8 arg9 harg9) K } := by
  refine ⟨?_, ?_, ?_, ?_, fun E K => ?run⟩
  case run =>
    simp only [cc0__update_kernel_eq_skeleton]; unfold cc0__update_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexists _; iexact HS0
    iexists _; iexact HS1

end Cert.KernelIdeal.Hand

end
-- ==== Proof.KI.Body0.lean ====
/- The update kernel over its whole grid. What the two scratch buffers hold after point t is defined by recursion
   on t: on a head's first tile (t % 4 = 0) it is that tile's reset-and-update of the head's M and z, whatever was
   there before; on every other tile it is that tile's update of what point t - 1 left. On a head's last tile
   (t % 4 = 3) the output windows' buffers receive copies of the scratch buffers; elsewhere they are idle. The
   region's invariant before point t > 0 holds the scratch buffers at what point t - 1 left; before the first point
   it is the class invariant, with them at anything. With the pipeline's proof data so chosen, the body obligation
   at a point is the run of the case its residue modulo 4 selects. -/
import proofs.«172453_j88390426951900_1_alg».proof.Proof.KI.RunC
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
variable (V : (c : Dev nD) → (b : Ref sig .tc) → Buf (Elt F) ((c : Thread nD τ).loc b))

/-! ## The three runs at a grid point, on what the pipeline calls the body with there -/

abbrev runA (c : Dev nD) (t : Fin cfg0.N) (h0 : t.val % 4 = 0) (h1 : ¬t.val % 4 = 3) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t)
abbrev runB (c : Dev nD) (t : Fin cfg0.N) (h0 : ¬t.val % 4 = 0) (h1 : ¬t.val % 4 = 3) (p : Vec F S128x128 .f32 × Vec F S128x1 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) p.1 p.2
abbrev runC (c : Dev nD) (t : Fin cfg0.N) (h0 : ¬t.val % 4 = 0) (h1 : t.val % 4 = 3) (p : Vec F S128x128 .f32 × Vec F S128x1 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) p.1 p.2

/-! ## Each case's stores cover the buffers they are made into -/

theorem scoverA_0 (c : Dev nD) (t : Fin cfg0.N) (h0 : t.val % 4 = 0) (h1 : ¬t.val % 4 = 3) (y : S128x128.Idx) :
    ∃ pc ∈ (runA V c t h0 h1).1, y ∈ pc.1.set :=
  View.cover_of_tiledL (runA V c t h0 h1).1 S128x128.size (by sl_kernel_rfl) y
theorem scoverA_1 (c : Dev nD) (t : Fin cfg0.N) (h0 : t.val % 4 = 0) (h1 : ¬t.val % 4 = 3) (y : S128x1.Idx) :
    ∃ pc ∈ (runA V c t h0 h1).2.1, y ∈ pc.1.set :=
  View.cover_of_tiledL (runA V c t h0 h1).2.1 S128x1.size (by sl_kernel_rfl) y
theorem scoverB_0 (c : Dev nD) (t : Fin cfg0.N) (h0 : ¬t.val % 4 = 0) (h1 : ¬t.val % 4 = 3) (p : Vec F S128x128 .f32 × Vec F S128x1 .f32) (y : S128x128.Idx) :
    ∃ pc ∈ (runB V c t h0 h1 p).1, y ∈ pc.1.set :=
  View.cover_of_tiledL (runB V c t h0 h1 p).1 S128x128.size (by sl_kernel_rfl) y
theorem scoverB_1 (c : Dev nD) (t : Fin cfg0.N) (h0 : ¬t.val % 4 = 0) (h1 : ¬t.val % 4 = 3) (p : Vec F S128x128 .f32 × Vec F S128x1 .f32) (y : S128x1.Idx) :
    ∃ pc ∈ (runB V c t h0 h1 p).2.1, y ∈ pc.1.set :=
  View.cover_of_tiledL (runB V c t h0 h1 p).2.1 S128x1.size (by sl_kernel_rfl) y
theorem coverC_4 (c : Dev nD) (t : Fin cfg0.N) (h0 : ¬t.val % 4 = 0) (h1 : t.val % 4 = 3) (p : Vec F S128x128 .f32 × Vec F S128x1 .f32) (y : S1x128x128.Idx) :
    ∃ pc ∈ (runC V c t h0 h1 p).1, y ∈ pc.1.set :=
  View.cover_of_tiledL (runC V c t h0 h1 p).1 S1x128x128.size (by sl_kernel_rfl) y
theorem coverC_5 (c : Dev nD) (t : Fin cfg0.N) (h0 : ¬t.val % 4 = 0) (h1 : t.val % 4 = 3) (p : Vec F S128x128 .f32 × Vec F S128x1 .f32) (y : S1x128x1.Idx) :
    ∃ pc ∈ (runC V c t h0 h1 p).2.1, y ∈ pc.1.set :=
  View.cover_of_tiledL (runC V c t h0 h1 p).2.1 S1x128x1.size (by sl_kernel_rfl) y
theorem scoverC_0 (c : Dev nD) (t : Fin cfg0.N) (h0 : ¬t.val % 4 = 0) (h1 : t.val % 4 = 3) (p : Vec F S128x128 .f32 × Vec F S128x1 .f32) (y : S128x128.Idx) :
    ∃ pc ∈ (runC V c t h0 h1 p).2.2.1, y ∈ pc.1.set :=
  View.cover_of_tiledL (runC V c t h0 h1 p).2.2.1 S128x128.size (by sl_kernel_rfl) y
theorem scoverC_1 (c : Dev nD) (t : Fin cfg0.N) (h0 : ¬t.val % 4 = 0) (h1 : t.val % 4 = 3) (p : Vec F S128x128 .f32 × Vec F S128x1 .f32) (y : S128x1.Idx) :
    ∃ pc ∈ (runC V c t h0 h1 p).2.2.2.1, y ∈ pc.1.set :=
  View.cover_of_tiledL (runC V c t h0 h1 p).2.2.2.1 S128x1.size (by sl_kernel_rfl) y

/-! ## What each case leaves: its pieces read back -/

/-- The scratch pair (memory matrix, normaliser) after a head's first tile. -/
def sA (c : Dev nD) (t : Fin cfg0.N) (h0 : t.val % 4 = 0) (h1 : ¬t.val % 4 = 3) : Vec F S128x128 .f32 × Vec F S128x1 .f32 :=
  (VS0_0.read (Elt F) (VS0_0.writes (Elt F) VS0_0.junk (runA V c t h0 h1).1),
   VS0_1.read (Elt F) (VS0_1.writes (Elt F) VS0_1.junk (runA V c t h0 h1).2.1))
/-- The scratch pair after a middle tile, over the pair `p` the tile before left. -/
def sB (c : Dev nD) (t : Fin cfg0.N) (h0 : ¬t.val % 4 = 0) (h1 : ¬t.val % 4 = 3) (p : Vec F S128x128 .f32 × Vec F S128x1 .f32) : Vec F S128x128 .f32 × Vec F S128x1 .f32 :=
  (VS0_0.read (Elt F) (VS0_0.writes (Elt F) VS0_0.junk (runB V c t h0 h1 p).1),
   VS0_1.read (Elt F) (VS0_1.writes (Elt F) VS0_1.junk (runB V c t h0 h1 p).2.1))
/-- The scratch pair after a head's last tile, over the pair `p` the tile before left. -/
def sC (c : Dev nD) (t : Fin cfg0.N) (h0 : ¬t.val % 4 = 0) (h1 : t.val % 4 = 3) (p : Vec F S128x128 .f32 × Vec F S128x1 .f32) : Vec F S128x128 .f32 × Vec F S128x1 .f32 :=
  (VS0_0.read (Elt F) (VS0_0.writes (Elt F) VS0_0.junk (runC V c t h0 h1 p).2.2.1),
   VS0_1.read (Elt F) (VS0_1.writes (Elt F) VS0_1.junk (runC V c t h0 h1 p).2.2.2.1))
/-- The two output buffers after a head's last tile. -/
def oC (c : Dev nD) (t : Fin cfg0.N) (h0 : ¬t.val % 4 = 0) (h1 : t.val % 4 = 3) (p : Vec F S128x128 .f32 × Vec F S128x1 .f32) : Vec F S1x128x128 .f32 × Vec F S1x128x1 .f32 :=
  (VO0_4.read (Elt F) (VO0_4.writes (Elt F) VO0_4.junk (runC V c t h0 h1 p).1),
   VO0_5.read (Elt F) (VO0_5.writes (Elt F) VO0_5.junk (runC V c t h0 h1 p).2.1))

/-! ## The accumulation over the points -/

/-- What the two scratch buffers hold after the body at point `n`. -/
def accAt0 (c : Dev nD) : (n : ℕ) → n < cfg0.N → Vec F S128x128 .f32 × Vec F S128x1 .f32
  | 0, hn => sA V c ⟨0, hn⟩ (Nat.zero_mod _) (fun h => by have h' : 0 % 4 = 3 := h; omega)
  | n + 1, hn =>
    if h0 : (n + 1) % 4 = 0 then sA V c ⟨n + 1, hn⟩ h0 (fun h1 => by have h1' : (n + 1) % 4 = 3 := h1; omega)
    else if h1 : (n + 1) % 4 = 3 then sC V c ⟨n + 1, hn⟩ h0 h1 (accAt0 c n (Nat.lt_of_succ_lt hn))
    else sB V c ⟨n + 1, hn⟩ h0 h1 (accAt0 c n (Nat.lt_of_succ_lt hn))

theorem accAt0_A (c : Dev nD) (t : Fin cfg0.N) (h0 : t.val % 4 = 0) (h1 : ¬t.val % 4 = 3) :
    accAt0 V c t.val t.isLt = sA V c t h0 h1 := by
  obtain ⟨n, hn⟩ := t
  cases n with
  | zero => exact rfl
  | succ n => exact (dif_pos h0).trans rfl

theorem accAt0_B (c : Dev nD) (t : Fin cfg0.N) (h0 : ¬t.val % 4 = 0) (h1 : ¬t.val % 4 = 3) :
    accAt0 V c t.val t.isLt = sB V c t h0 h1 (accAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt0_C (c : Dev nD) (t : Fin cfg0.N) (h0 : ¬t.val % 4 = 0) (h1 : t.val % 4 = 3) :
    accAt0 V c t.val t.isLt = sC V c t h0 h1 (accAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the two output windows' buffers hold after the body at point `t`: on a head's last tile the copies of
    the scratch buffers; elsewhere a placeholder nothing reads (the windows are idle there and not written back). -/
def outAt0 (c : Dev nD) (t : Fin cfg0.N) : Vec F S1x128x128 .f32 × Vec F S1x128x1 .f32 :=
  if h1 : t.val % 4 = 3 then oC V c t (fun h0 => by omega) h1 (accAt0 V c (t.val - 1) (Nat.lt_of_le_of_lt (Nat.sub_le _ _) t.isLt))
  else (VO0_4.read (Elt F) (VO0_4.writes (Elt F) VO0_4.junk []), VO0_5.read (Elt F) (VO0_5.writes (Elt F) VO0_5.junk []))

theorem outAt0_C (c : Dev nD) (t : Fin cfg0.N) (h0 : ¬t.val % 4 = 0) (h1 : t.val % 4 = 3) :
    outAt0 V c t = oC V c t h0 h1 (accAt0 V c (t.val - 1) (Nat.lt_of_le_of_lt (Nat.sub_le _ _) t.isLt)) := dif_pos h1

/-! ## The region's invariant -/

/-- Before point `n`: at the start the class invariant; afterwards the scratch buffers at what point `n - 1` left,
    the scoped buffers the kernel never touches, and the generator register. -/
def PhiS (c : Dev nD) : (n : ℕ) → n ≤ cfg0.N → sProp 𝕄
  | 0, _ => Pipeline.ΦA spec0 c
  | n + 1, hn => iprop(iprop(owns (c : Thread nD τ) scM0_0 fullShare (accAt0 V c n hn).1 ∗ owns (c : Thread nD τ) scM0_1 fullShare (accAt0 V c n hn).2 ∗ rest0 c) ∗ (∃ r, prngReg c r))

theorem PhiS_succ (c : Dev nD) (n : ℕ) (hn : n < cfg0.N) :
    PhiS V c (n + 1) hn = iprop(iprop(owns (c : Thread nD τ) scM0_0 fullShare (accAt0 V c n hn).1 ∗ owns (c : Thread nD τ) scM0_1 fullShare (accAt0 V c n hn).2 ∗ rest0 c) ∗ (∃ r, prngReg c r)) := rfl

theorem PhiS_pos (c : Dev nD) (n : ℕ) (h : n ≤ cfg0.N) (hz : n ≠ 0) :
    PhiS V c n h = iprop(iprop(owns (c : Thread nD τ) scM0_0 fullShare (accAt0 V c (n - 1) (by omega)).1 ∗ owns (c : Thread nD τ) scM0_1 fullShare (accAt0 V c (n - 1) (by omega)).2 ∗ rest0 c) ∗ (∃ r, prngReg c r)) := by
  cases n with
  | zero => exact absurd rfl hz
  | succ n => rfl

/-- At any point the invariant holds at least the scratch buffers at SOME contents: what a first tile needs. -/
theorem PhiS_any (c : Dev nD) (n : ℕ) (h : n ≤ cfg0.N) :
    PhiS V c n h ⊢ iprop(iprop((∃ d, owns (c : Thread nD τ) scM0_0 fullShare d) ∗ (∃ d, owns (c : Thread nD τ) scM0_1 fullShare d) ∗ rest0 c) ∗ (∃ r, prngReg c r)) := by
  cases n with
  | zero => rw [show PhiS V c 0 h = Pipeline.ΦA spec0 c from rfl, PhiA0_eq]; try exact Idealize.SL.BI.Entails.refl _
  | succ n =>
    rw [PhiS_succ]
    iintro ⟨⟨HS0, HS1, Hr⟩, Hg⟩
    isplitr [Hg]
    · isplitl [HS0]; · iexists _; iexact HS0
      isplitl [HS1]; · iexists _; iexact HS1
      iexact Hr
    iexact Hg

/-! ## The update pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outAt0 V c t).1
    | ⟨5, _⟩ => (outAt0 V c t).2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outAt0 V c t).1 := by dsimp only [dat0]
theorem after0_5 (c : Dev nD) (t : Fin cfg0.N) : (dat0 V c).after 5 t = (outAt0 V c t).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point. The input buffers hold their blocks; the residue of the point modulo 4 says which case
    it is in; the invariant hands over the scratch buffers (at what the point before left, or at anything on a
    head's first tile) and takes them back at this point's contents; idle output buffers are handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  have hN : t.val < 256 := lt_of_lt_of_eq t.isLt (show cfg0.N = 256 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [PhiS_castSucc V c t]
  by_cases h1 : t.val % 4 = 3
  · have h0 : ¬t.val % 4 = 0 := by omega
    have hz : t.val ≠ 0 := by omega
    rw [show (dat0 V c).leavesExact 4 t = owns (c : Thread nD τ) (ms0_4 t) fullShare ((dat0 V c).after 4 t) from by
      unfold Dat.leavesExact; rw [liveAt0_4 t ((hcond0_1 t).mpr h1)], after0_4]
    rw [show (dat0 V c).leavesExact 5 t = owns (c : Thread nD τ) (ms0_5 t) fullShare ((dat0 V c).after 5 t) from by
      unfold Dat.leavesExact; rw [liveAt0_5 t ((hcond0_1 t).mpr h1)], after0_5]
    rw [outAt0_C V c t h0 h1, accAt0_C V c t h0 h1, PhiS_pos V c _ _ hz]
    unfold oC sC; (try dsimp only)
    iintro ⟨⟨⟨HS0, HS1, Hr⟩, Hg⟩, Ho, ⟨%d0, H0⟩, ⟨%d1, H1⟩, ⟨%d2, H2⟩, ⟨%d3, H3⟩, ⟨%d4, H4⟩, ⟨%d5, H5⟩⟩
    iapply ((runC V c t h0 h1 _).2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iintro ⟨H0, H1, H2, H3, ⟨%e4, H4⟩, ⟨%e5, H5⟩, ⟨%es0, HS0⟩, ⟨%es1, HS1⟩⟩
    isplitl [HS0 HS1 Hr Hg]
    · isplitr [Hg]
      · isplitl [HS0]
        · unfold owns; iexists _; isplitr
          swap; · iexact HS0
          ipureintro; exact View.read_writes_of_cover _ _ _ _ _ (scoverC_0 V c t h0 h1 _)
        isplitl [HS1]
        · unfold owns; iexists _; isplitr
          swap; · iexact HS1
          ipureintro; exact View.read_writes_of_cover _ _ _ _ _ (scoverC_1 V c t h0 h1 _)
        iexact Hr
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverC_4 V c t h0 h1 _)
    unfold owns; iexists _; isplitr
    swap; · iexact H5
    ipureintro; exact View.read_writes_of_cover _ _ _ _ _ (coverC_5 V c t h0 h1 _)
  · have hi4 := idleAt0_4 t (fun h => h1 ((hcond0_1 t).mp h))
    have hf4 := noFlush0_4 t (fun h => h1 ((hcond0_1 t).mp h))
    have hi5 := idleAt0_5 t (fun h => h1 ((hcond0_1 t).mp h))
    have hf5 := noFlush0_5 t (fun h => h1 ((hcond0_1 t).mp h))
    rw [Dat.leavesExact_idle (dat0 V c) 4 t hi4 hf4, Dat.leavesExact_idle (dat0 V c) 5 t hi5 hf5]
    by_cases h0 : t.val % 4 = 0
    · rw [accAt0_A V c t h0 h1]
      unfold sA; (try dsimp only)
      iintro ⟨HΦ, Ho, ⟨%d0, H0⟩, ⟨%d1, H1⟩, ⟨%d2, H2⟩, ⟨%d3, H3⟩, ⟨%d4, H4⟩, ⟨%d5, H5⟩⟩
      ihave HΦ' := (PhiS_any V c _ _) $$ HΦ
      icases HΦ' with ⟨⟨HS0, HS1, Hr⟩, Hg⟩
      iapply ((runA V c t h0 h1).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hr Hg]
      · isplitr [Hg]
        · isplitl [HS0]
          · unfold owns; iexists _; isplitr
            swap; · iexact HS0
            ipureintro; exact View.read_writes_of_cover _ _ _ _ _ (scoverA_0 V c t h0 h1)
          isplitl [HS1]
          · unfold owns; iexists _; isplitr
            swap; · iexact HS1
            ipureintro; exact View.read_writes_of_cover _ _ _ _ _ (scoverA_1 V c t h0 h1)
          iexact Hr
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · have hz : t.val ≠ 0 := by omega
      rw [accAt0_B V c t h0 h1, PhiS_pos V c _ _ hz]
      unfold sB; (try dsimp only)
      iintro ⟨⟨⟨HS0, HS1, Hr⟩, Hg⟩, Ho, ⟨%d0, H0⟩, ⟨%d1, H1⟩, ⟨%d2, H2⟩, ⟨%d3, H3⟩, ⟨%d4, H4⟩, ⟨%d5, H5⟩⟩
      iapply ((runB V c t h0 h1 _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hr Hg]
      · isplitr [Hg]
        · isplitl [HS0]
          · unfold owns; iexists _; isplitr
            swap; · iexact HS0
            ipureintro; exact View.read_writes_of_cover _ _ _ _ _ (scoverB_0 V c t h0 h1 _)
          isplitl [HS1]
          · unfold owns; iexists _; isplitr
            swap; · iexact HS1
            ipureintro; exact View.read_writes_of_cover _ _ _ _ _ (scoverB_1 V c t h0 h1 _)
          iexact Hr
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl]
  exact Idealize.SL.BI.Entails.refl _

/-- After the last point the invariant gives the class invariant back: the scratch buffers' contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl, PhiA0_eq]
  exact PhiS_any V c _ _

end Entry

end Cert.KernelIdeal.Hand

end
-- ==== Proof.KI.Body1.lean ====
/- The retrieve kernel at one grid point: it reads 1024 query rows and the head's new memory matrix and normaliser,
   and writes the 1024 output rows σ(q)·M' / (σ(q)·z' + ε) over its whole output block. It keeps nothing between
   points, so what it leaves in the output window's buffer is one function of the three input blocks. -/
import proofs.«172453_j88390426951900_1_alg».proof.Proof.KI.Shared
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
variable (V : (c : Dev nD) → (b : Ref sig .tc) → Buf (Elt F) ((c : Thread nD τ).loc b))

/-! ## The body's accesses: each the whole of its buffer -/

abbrev rq1 : Rect S1x1024x128 := Rect.unit (s := S1x1024x128) ![0, 0, 0] S1x1024x128.size inb_S1x1024x128_S1x1024x128_0_0_0
abbrev rM1 : Rect S1x128x128 := Rect.unit (s := S1x128x128) ![0, 0, 0] S1x128x128.size inb_S1x128x128_S1x128x128_0_0_0
abbrev rz1 : Rect S1x128x1 := Rect.unit (s := S1x128x1) ![0, 0, 0] S1x128x1.size inb_S1x128x1_S1x128x1_0_0_0

/-- What the body leaves in the output window's buffer, from the three input blocks: its one store. -/
def out1_3 (x0 : Vec F S1x1024x128 .f32) (x1 : Vec F S1x128x128 .f32) (x2 : Vec F S1x128x1 .f32) : Vec F S1x1024x128 .f32 :=
  View.canon [⟨rq1, k1_pay1 (View.ld x0 rq1) (View.ld x1 rM1) (View.ld x2 rz1)⟩]

/-- The store is of the whole block, so it covers the buffer. -/
theorem cover1_3 (p0 : Vec F S1x1024x128 .f32) (y : S1x1024x128.Idx) :
    ∃ pc ∈ ([⟨rq1, p0⟩] : List (View.Piece (Elt F) S1x1024x128 .f32)), y ∈ pc.1.set :=
  View.cover_of_tiled [⟨rq1, p0⟩] S1x1024x128.size (by rfl) y

set_option maxHeartbeats 2000000 in
/-- The body on whole staging memrefs, the inputs at their contents and the output at anything, runs to the
    continuation holding the inputs as they were and the output at `out1_3` of them. -/
theorem sound_kernel1 (c : Dev nD) (E : Set ℕ) (i : grid1.Coords) (arg2 : Memref sig .tc .vmem S1x1024x128 .f32) (harg2 : arg2.IsWhole) (arg3 : Memref sig .tc .vmem S1x128x128 .f32) (harg3 : arg3.IsWhole) (arg4 : Memref sig .tc .vmem S1x128x1 .f32) (harg4 : arg4.IsWhole) (arg5 : Memref sig .tc .vmem S1x1024x128 .f32) (harg5 : arg5.IsWhole)
    (x0 : Vec F S1x1024x128 .f32) (x1 : Vec F S1x128x128 .f32) (x2 : Vec F S1x128x1 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out1_3 x0 x1 x2)) -∗ K ⟨⟩))
      ⊢ wp frame (wpE (defs₀ (F := F)) Variants.none c none) E (cc1__retrieve_kernel i arg2 harg2 arg3 harg3 arg4 harg4 arg5 harg5) K := by
  simp only [cc1__retrieve_kernel_eq_skeleton]; unfold cc1__retrieve_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The retrieve pipeline's proof data -/

/-- The arrays as the region finds them; after the body each input's buffer at its block and the output's at
    `out1_3` of the input blocks; the class invariant, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the input buffers hold their blocks, so the triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Entry

end Cert.KernelIdeal.Hand

end
-- ==== Proof.KI.Run.lean ====
/- The whole program as four segments: five reshapes of the arguments (each head's rows laid out under one
   leading axis of 64), the update region, the retrieve region, three reshapes back to four axes. The contents of
   every unscoped buffer at each boundary are a fold from the launch memory: a host stretch applies its operations;
   a region replaces its windows' arrays by what its write-backs leave and keeps every other buffer. One run of the
   program to its end, with every unscoped buffer at the last boundary's contents, gives both that the argument
   arrays end as launched (no stretch and no region writes one) and what the three result arrays hold. -/
import proofs.«172453_j88390426951900_1_alg».proof.Proof.KI.Body0
import proofs.«172453_j88390426951900_1_alg».proof.Proof.KI.Body1
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the five reshapes of the arguments: the update region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the update region: its arrays at what its write-backs leave. This is the retrieve region's entry. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the retrieve region: its arrays at what its write-backs leave. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the three reshapes of the results: the end. -/
abbrev W4 : Dev nD → Valuation τ sig (Elt F) := fun c => StableHlo.after hostOps2 (W3 m ρ c)

/-! ## No stretch and no region writes an argument -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The two regions as segments -/

set_option backward.isDefEq.respectTransparency.types false in
/-- The update region: entered with every unscoped buffer at `W1`, left with them at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The retrieve region: entered with every unscoped buffer at `W2`, left with them at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- Every weakly fair execution of the program from memory `m` terminates, nothing faulting, with every unscoped
    buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => show iprop(StableHlo.held (c : Thread nD τ) (Pipeline.ucRefs τ sig) (W4 m ρ c) ∗ R c)
        ⊢ iprop(Tₙ m ρ c ∗ ∃ W, owes (c : Thread nD τ) (0 : CellTallies nD τ sig Unit) W) from by
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

end Cert.KernelIdeal.Hand

end
-- ==== Proof.KI.Pieces.lean ====
/- What each case of the update kernel leaves, as plain terms over the body's named payloads: the pieces the runs
   found, read back, are the payloads of the stores. On a head's first tile the running memory matrix is the tile's
   update of the reset value (the head's M block), the running normaliser the tile's update of the head's z block; on
   the other tiles they are the tile's update of what the tile before left; on the last tile the output buffers are
   copies of the updated scratch buffers. The retrieve kernel's one store is its one payload. -/
import proofs.«172453_j88390426951900_1_alg».proof.Proof.KI.Body0
import proofs.«172453_j88390426951900_1_alg».proof.Proof.KI.Body1
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Every access of either kernel is of a whole buffer: its offsets, in rank 2 and in rank 3, are all zero. -/
private theorem zeros2 : (![0, 0] : Fin 2 → Nat) = fun _ => 0 := funext fun a => by fin_cases a <;> rfl
private theorem zeros3 : (![0, 0, 0] : Fin 3 → Nat) = fun _ => 0 := funext fun a => by fin_cases a <;> rfl

section Entry
variable (V : (c : Dev nD) → (b : Ref sig .tc) → Buf (Elt F) ((c : Thread nD τ).loc b))

/- On a head's first tile each scratch buffer is stored twice, both times whole: first the reset (the head's M
   block, its z block), then the update, whose payload reads the reset value back. The later store is what the
   buffer holds, and the value it read back is the reset store's payload. -/
theorem sA_eq (c : Dev nD) (t : Fin cfg0.N) (h0 : t.val % 4 = 0) (h1 : ¬t.val % 4 = 3) :
    sA V c t h0 h1 = (k0_pay1 (k0_pay10 (iblk0 V c 0 t) (iblk0 V c 1 t) (iblk0 V c 2 t) (iblk0 V c 3 t) (k0_pay5 (iblk0 V c 2 t))),
      k0_pay2 (k0_pay9 (iblk0 V c 0 t)) (k0_pay6 (iblk0 V c 3 t))) := by
  unfold sA
  refine Prod.ext ?_ ?_
  · dsimp only
    rw [View.read_writes_eq_canon _ _ _ (scoverA_0 V c t h0 h1)]
    unfold runA kernelRun0_A
    dsimp only
    sl_unfold_words
    rw [View.canon_cons_unit_zero (S := S128x128) zeros2]
    simp only [View.readAt_eq_ld, Memref.IsWhole.read_unread,
      (Memref.isWhole_whole cc0_scratch0).read_unread, (Memref.isWhole_whole cc0_scratch1).read_unread,
      View.readCov_unit_zero (S := S128x128) _ zeros2,
      View.ld_unit_zero (S := S1x1024x128) zeros3, View.ld_unit_zero (S := S1x128x128) zeros3,
      View.ld_unit_zero (S := S1x128x1) zeros3, View.ld_unit_zero (S := S128x128) zeros2,
      View.ld_unit_zero (S := S128x1) zeros2]
  · dsimp only
    rw [View.read_writes_eq_canon _ _ _ (scoverA_1 V c t h0 h1)]
    unfold runA kernelRun0_A
    dsimp only
    sl_unfold_words
    rw [View.canon_cons_unit_zero (S := S128x1) zeros2]
    simp only [View.readAt_eq_ld, Memref.IsWhole.read_unread,
      (Memref.isWhole_whole cc0_scratch0).read_unread, (Memref.isWhole_whole cc0_scratch1).read_unread,
      View.readCov_unit_zero (S := S128x1) _ zeros2,
      View.ld_unit_zero (S := S1x1024x128) zeros3, View.ld_unit_zero (S := S1x128x128) zeros3,
      View.ld_unit_zero (S := S1x128x1) zeros3, View.ld_unit_zero (S := S128x128) zeros2,
      View.ld_unit_zero (S := S128x1) zeros2]

/- On a middle tile each scratch buffer is stored once, whole: the update of what the tile before left, which
   the payload's load of the buffer reads. -/
theorem sB_eq (c : Dev nD) (t : Fin cfg0.N) (h0 : ¬t.val % 4 = 0) (h1 : ¬t.val % 4 = 3) (p : Vec F S128x128 .f32 × Vec F S128x1 .f32) :
    sB V c t h0 h1 p = (k0_pay1 (k0_pay10 (iblk0 V c 0 t) (iblk0 V c 1 t) (iblk0 V c 2 t) (iblk0 V c 3 t) p.1),
      k0_pay2 (k0_pay9 (iblk0 V c 0 t)) p.2) := by
  unfold sB
  refine Prod.ext ?_ ?_
  · dsimp only
    rw [View.read_writes_eq_canon _ _ _ (scoverB_0 V c t h0 h1 p)]
    unfold runB kernelRun0_B
    dsimp only
    sl_unfold_words
    rw [View.canon_unit_zero (S := S128x128) zeros2]
    simp only [View.readAt_eq_ld, Memref.IsWhole.read_unread,
      (Memref.isWhole_whole cc0_scratch0).read_unread, (Memref.isWhole_whole cc0_scratch1).read_unread,
      View.ld_unit_zero (S := S1x1024x128) zeros3, View.ld_unit_zero (S := S1x128x128) zeros3,
      View.ld_unit_zero (S := S1x128x1) zeros3, View.ld_unit_zero (S := S128x128) zeros2,
      View.ld_unit_zero (S := S128x1) zeros2]
  · dsimp only
    rw [View.read_writes_eq_canon _ _ _ (scoverB_1 V c t h0 h1 p)]
    unfold runB kernelRun0_B
    dsimp only
    sl_unfold_words
    rw [View.canon_unit_zero (S := S128x1) zeros2]
    simp only [View.readAt_eq_ld, Memref.IsWhole.read_unread,
      (Memref.isWhole_whole cc0_scratch0).read_unread, (Memref.isWhole_whole cc0_scratch1).read_unread,
      View.ld_unit_zero (S := S1x1024x128) zeros3, View.ld_unit_zero (S := S1x128x128) zeros3,
      View.ld_unit_zero (S := S1x128x1) zeros3, View.ld_unit_zero (S := S128x128) zeros2,
      View.ld_unit_zero (S := S128x1) zeros2]

/- On a head's last tile the scratch buffers are updated exactly as on a middle tile. -/
theorem sC_eq (c : Dev nD) (t : Fin cfg0.N) (h0 : ¬t.val % 4 = 0) (h1 : t.val % 4 = 3) (p : Vec F S128x128 .f32 × Vec F S128x1 .f32) :
    sC V c t h0 h1 p = (k0_pay1 (k0_pay10 (iblk0 V c 0 t) (iblk0 V c 1 t) (iblk0 V c 2 t) (iblk0 V c 3 t) p.1),
      k0_pay2 (k0_pay9 (iblk0 V c 0 t)) p.2) := by
  unfold sC
  refine Prod.ext ?_ ?_
  · dsimp only
    rw [View.read_writes_eq_canon _ _ _ (scoverC_0 V c t h0 h1 p)]
    unfold runC kernelRun0_C
    dsimp only
    sl_unfold_words
    rw [View.canon_unit_zero (S := S128x128) zeros2]
    simp only [View.readAt_eq_ld, Memref.IsWhole.read_unread,
      (Memref.isWhole_whole cc0_scratch0).read_unread, (Memref.isWhole_whole cc0_scratch1).read_unread,
      View.ld_unit_zero (S := S1x1024x128) zeros3, View.ld_unit_zero (S := S1x128x128) zeros3,
      View.ld_unit_zero (S := S1x128x1) zeros3, View.ld_unit_zero (S := S128x128) zeros2,
      View.ld_unit_zero (S := S128x1) zeros2]
  · dsimp only
    rw [View.read_writes_eq_canon _ _ _ (scoverC_1 V c t h0 h1 p)]
    unfold runC kernelRun0_C
    dsimp only
    sl_unfold_words
    rw [View.canon_unit_zero (S := S128x1) zeros2]
    simp only [View.readAt_eq_ld, Memref.IsWhole.read_unread,
      (Memref.isWhole_whole cc0_scratch0).read_unread, (Memref.isWhole_whole cc0_scratch1).read_unread,
      View.ld_unit_zero (S := S1x1024x128) zeros3, View.ld_unit_zero (S := S1x128x128) zeros3,
      View.ld_unit_zero (S := S1x128x1) zeros3, View.ld_unit_zero (S := S128x128) zeros2,
      View.ld_unit_zero (S := S128x1) zeros2]

/- On a head's last tile each output buffer is stored once, whole, and the payload is a copy of the scratch buffer
   loaded after its update: that load reads the update store's payload, which is what the scratch buffer holds. -/
theorem oC_eq (c : Dev nD) (t : Fin cfg0.N) (h0 : ¬t.val % 4 = 0) (h1 : t.val % 4 = 3) (p : Vec F S128x128 .f32 × Vec F S128x1 .f32) :
    oC V c t h0 h1 p = (k0_pay3 (sC V c t h0 h1 p).1, k0_pay4 (sC V c t h0 h1 p).2) := by
  rw [sC_eq V c t h0 h1 p]
  unfold oC
  refine Prod.ext ?_ ?_
  · dsimp only
    rw [View.read_writes_eq_canon _ _ _ (coverC_4 V c t h0 h1 p)]
    unfold runC kernelRun0_C
    dsimp only
    sl_unfold_words
    rw [View.canon_unit_zero (S := S1x128x128) zeros3]
    simp only [View.readAt_eq_ld, Memref.IsWhole.read_unread,
      (Memref.isWhole_whole cc0_scratch0).read_unread, (Memref.isWhole_whole cc0_scratch1).read_unread,
      View.readCov_unit_zero (S := S128x128) _ zeros2,
      View.ld_unit_zero (S := S1x1024x128) zeros3, View.ld_unit_zero (S := S1x128x128) zeros3,
      View.ld_unit_zero (S := S1x128x1) zeros3, View.ld_unit_zero (S := S128x128) zeros2,
      View.ld_unit_zero (S := S128x1) zeros2]
  · dsimp only
    rw [View.read_writes_eq_canon _ _ _ (coverC_5 V c t h0 h1 p)]
    unfold runC kernelRun0_C
    dsimp only
    sl_unfold_words
    rw [View.canon_unit_zero (S := S1x128x1) zeros3]
    simp only [View.readAt_eq_ld, Memref.IsWhole.read_unread,
      (Memref.isWhole_whole cc0_scratch0).read_unread, (Memref.isWhole_whole cc0_scratch1).read_unread,
      View.readCov_unit_zero (S := S128x1) _ zeros2,
      View.ld_unit_zero (S := S1x1024x128) zeros3, View.ld_unit_zero (S := S1x128x128) zeros3,
      View.ld_unit_zero (S := S1x128x1) zeros3, View.ld_unit_zero (S := S128x128) zeros2,
      View.ld_unit_zero (S := S128x1) zeros2]

end Entry

/- The retrieve kernel stores once, its whole output block, from whole-buffer loads of its three inputs. -/
theorem out1_3_eq (x0 : Vec F S1x1024x128 .f32) (x1 : Vec F S1x128x128 .f32) (x2 : Vec F S1x128x1 .f32) :
    out1_3 x0 x1 x2 = k1_pay1 x0 x1 x2 := by
  unfold out1_3
  rw [View.canon_unit_zero (S := S1x1024x128) zeros3]
  simp only [View.ld_unit_zero (S := S1x1024x128) zeros3, View.ld_unit_zero (S := S1x128x128) zeros3,
    View.ld_unit_zero (S := S1x128x1) zeros3]

end Cert.KernelIdeal.Hand

end
-- ==== Proof.Spec.lean ====
/- What both programs compute, per head g (the 4 × 16 heads merged into one axis of 64), over extended reals:
     σ(x)        = x + 1 where x > 0, e^(min x 0) elsewhere;
     pred(g,s,e) = Σ_d σ(K[g,s,d]) · M[g,d,e]          nrm(g,s) = Σ_d σ(K[g,s,d]) · Z[g,d,0]
     δ(g,s,e)    = V[g,s,e] − pred(g,s,e) / (nrm(g,s) + ε)
     M'[g,d,e]   = M[g,d,e] + Σ_s σ(K[g,s,d]) · δ(g,s,e)   Z'[g,d,0] = Z[g,d,0] + Σ_s σ(K[g,s,d])
     out[g,s,e]  = (Σ_d σ(Q[g,s,d]) · M'[g,d,e]) / (Σ_d σ(Q[g,s,d]) · Z'[g,d,0] + ε)
   the sums over s running over all 4096 rows of the head. The kernel adds the 4096 rows up in four tiles of 1024,
   one after the other, onto the head's M (or Z); the one law that joins the two is that a sum over 4096 rows is the
   sum of its four tiles, with the additions regrouped (associativity of + on the extended reals: no finiteness is
   used). -/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

open scoped BigOperators

namespace Cert.Spec

open Idealize.ShloMosaic Idealize.ShloMosaic.ValueIdx

/-- Keys, values, queries and outputs, heads merged: [64, 4096, 128]. -/
abbrev T3 : Shape := ⟨3, ![64, 4096, 128]⟩
/-- The memory matrices, heads merged: [64, 128, 128]. -/
abbrev M3 : Shape := ⟨3, ![64, 128, 128]⟩
/-- The normalisers, heads merged: [64, 128, 1]. -/
abbrev Z3 : Shape := ⟨3, ![64, 128, 1]⟩

/-- The feature map elu(x) + 1, on one extended real: the comparison, the sum and the exponential of the clamped
    argument exactly as both programs spell them. -/
def sg (a : EReal) : EReal :=
  Scalar.select (Ideal.cmp .ogt a (Ideal.ofBits .f32 0x00000000#32)) (a + Ideal.ofBits .f32 0x3F800000#32)
    (Ideal.exp (min a (Ideal.ofBits .f32 0x00000000#32)))

/-- The ε both programs add to a normaliser before dividing by it: the float nearest 10⁻⁶. -/
def eps : EReal := Ideal.ofBits .f32 0x358637BD#32

/-- The old memory's prediction for row s of head g, column e. -/
def pred (K : T3.Idx → EReal) (M : M3.Idx → EReal) (g : Fin 64) (s : Fin 4096) (e : Fin 128) : EReal :=
  ∑ d : Fin 128, sg (K (ix3 g s d)) * M (ix3 g d e)
/-- The old normaliser applied to row s of head g. -/
def nrm (K : T3.Idx → EReal) (Z : Z3.Idx → EReal) (g : Fin 64) (s : Fin 4096) : EReal :=
  ∑ d : Fin 128, sg (K (ix3 g s d)) * Z (ix3 g d (0 : Fin 1))
/-- The delta-rule residual of row s of head g, column e. -/
def dv (K V : T3.Idx → EReal) (M : M3.Idx → EReal) (Z : Z3.Idx → EReal) (g : Fin 64) (s : Fin 4096) (e : Fin 128) : EReal :=
  V (ix3 g s e) - Ideal.div (pred K M g s e) (nrm K Z g s + eps)
/-- The updated memory matrices. -/
def newM (K V : T3.Idx → EReal) (M : M3.Idx → EReal) (Z : Z3.Idx → EReal) : M3.Idx → EReal := fun i =>
  M (ix3 (i 0) (i 1) (i 2)) + ∑ s : Fin 4096, sg (K (ix3 (i 0) s (i 1))) * dv K V M Z (i 0) s (i 2)
/-- The updated normalisers. -/
def newZ (K : T3.Idx → EReal) (Z : Z3.Idx → EReal) : Z3.Idx → EReal := fun i =>
  Z (ix3 (i 0) (i 1) (0 : Fin 1)) + ∑ s : Fin 4096, sg (K (ix3 (i 0) s (i 1)))
/-- Retrieval of the queries `Q` from a memory `M` with normaliser `Z`. -/
def retr (Q : T3.Idx → EReal) (M : M3.Idx → EReal) (Z : Z3.Idx → EReal) : T3.Idx → EReal := fun i =>
  Ideal.div (∑ d : Fin 128, sg (Q (ix3 (i 0) (i 1) d)) * M (ix3 (i 0) d (i 2)))
    ((∑ d : Fin 128, sg (Q (ix3 (i 0) (i 1) d)) * Z (ix3 (i 0) d (0 : Fin 1))) + eps)

/-- Row r of tile j of a head's 4096 rows. -/
def tileRow (j : Fin 4) (r : Fin 1024) : Fin 4096 := ⟨1024 * j.val + r.val, by omega⟩

/-- A value with the four tiles' sums added one after the other is the value plus the sum over all rows. -/
theorem acc_tiles (a : EReal) (f : Fin 4096 → EReal) :
    (((a + ∑ r : Fin 1024, f (tileRow 0 r)) + ∑ r : Fin 1024, f (tileRow 1 r)) + ∑ r : Fin 1024, f (tileRow 2 r))
      + ∑ r : Fin 1024, f (tileRow 3 r) = a + ∑ s : Fin 4096, f s := by
  -- the 4096 rows are the pairs (tile, row in tile); then the sum over the four tiles is written out
  have h : ∑ s : Fin 4096, f s = ∑ p : Fin 4 × Fin 1024, f (tileRow p.1 p.2) :=
    (Fintype.sum_equiv (finProdFinEquiv (m := 4) (n := 1024)) (fun p => f (tileRow p.1 p.2)) (fun s : Fin 4096 => f s)
      (fun p => congrArg f (Fin.ext (by simp only [tileRow, finProdFinEquiv_apply_val]; omega)))).symm
  rw [h, Fintype.sum_prod_type, Fin.sum_univ_four]
  simp only [add_assoc]

end Cert.Spec

end
-- ==== Proof.KI.PayIdx.lean ====
/- The kernels' arithmetic read one element at a time, at the ideal instance. A tile's update of the running memory
   matrix at (d, e) adds Σ_r σ(k[r,d]) · (v[r,e] − (Σ_d' σ(k[r,d'])·M[d',e]) / (Σ_d' σ(k[r,d'])·z[d',0] + ε)) over the tile's
   1024 rows; its update of the running normaliser at d adds Σ_r σ(k[r,d]) (the product with the column of ones is the
   sum itself); the resets and the copies out are re-indexings between a [1,a,b] block and an [a,b] matrix; the
   retrieve kernel's element is the quotient of two such sums over the 128 features. -/
import proofs.«172453_j88390426951900_1_alg».proof.Proof.Gen.KernelIdeal.Skeleton
import proofs.«172453_j88390426951900_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen Cert.Spec
open Idealize.ShloMosaic Idealize.ShloMosaic.TcCoe Idealize.ShloMosaic.ValueIdx
open Idealize.SL.Sem

/-! ## Layout: a column spread over the columns of a matrix -/

/-- A column [a, 1] broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The four contractions, each read at an index

Every matrix product of the two kernels contracts the left operand's second axis with the right operand's first, into a
zero accumulator: its element at (p, c) is Σ_k l[p,k] · r[k,c]. For each of the four shapes: the operand indices of the
dimension numbers, axis by axis, then the product at an index with the contraction re-indexed by its one coordinate. -/

/-- [1024,128] · [128,128]: the left operand's row is the result's row. -/
theorem lhs_mmA_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
/-- … its column the contraction's coordinate. -/
theorem lhs_mmA_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
/-- The right operand's row is the contraction's coordinate … -/
theorem rhs_mmA_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
/-- … its column the result's column. -/
theorem rhs_mmA_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl
/-- [1024,128] · [128,128] into zero, at (p, c): Σ_k l[p,k] · r[k,c] over the 128 features. -/
theorem mmA_apply (l : FVec Ideal S1024x128 .f32) (r : FVec Ideal S128x128 .f32) (p : Fin 1024) (c : Fin 128) :
    matmul (F := Ideal) dot_S1024x128_S128x128_S1024x128_1_0_0_1_n_n none l r (constant (F := Ideal) S1024x128 .f32 0x00000000#32) (ix2 p c)
      = ∑ k : Fin 128, l (ix2 p k) * r (ix2 k c) := by
  simp only [matmul]
  rw [Ideal.matmul_constant_zero_apply, ← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 p c) ((contrEquiv1 dot_S1024x128_S128x128_S1024x128_1_0_0_1_n_n 128 rfl rfl).symm k) = ix2 p k := funext fun a => Fin.ext (by
    match a with
    | ⟨0, _⟩ => exact lhs_mmA_0 _ _
    | ⟨1, _⟩ => exact (lhs_mmA_1 _ _).trans hk)
  have er : dot_S1024x128_S128x128_S1024x128_1_0_0_1_n_n.rhsIdx (ix2 p c) ((contrEquiv1 dot_S1024x128_S128x128_S1024x128_1_0_0_1_n_n 128 rfl rfl).symm k) = ix2 k c := funext fun a => Fin.ext (by
    match a with
    | ⟨0, _⟩ => exact (rhs_mmA_0 _ _).trans hk
    | ⟨1, _⟩ => exact rhs_mmA_1 _ _)
  rw [el, er]

/-- [1024,128] · [128,1]: the left operand's row is the result's row. -/
theorem lhs_mmB_0 (i : S1024x1.Idx) (q : dot_S1024x128_S128x1_S1024x1_1_0_0_1_n_n.contr.Idx) :
    (dot_S1024x128_S128x1_S1024x1_1_0_0_1_n_n.lhsIdx i q 0).val = (i 0).val := by
  unfold DotDims.lhsIdx
  rw [dif_neg (show ¬(0 : Fin S1024x128.rank) ∈ dot_S1024x128_S128x1_S1024x1_1_0_0_1_n_n.lhsBatch by decide), dif_pos (show (0 : Fin S1024x128.rank) ∈ dot_S1024x128_S128x1_S1024x1_1_0_0_1_n_n.lhsNonContracting by decide)]
  rfl
/-- … its column the contraction's coordinate. -/
theorem lhs_mmB_1 (i : S1024x1.Idx) (q : dot_S1024x128_S128x1_S1024x1_1_0_0_1_n_n.contr.Idx) :
    (dot_S1024x128_S128x1_S1024x1_1_0_0_1_n_n.lhsIdx i q 1).val = (q ⟨0, by decide⟩).val :=
  dot_S1024x128_S128x1_S1024x1_1_0_0_1_n_n.lhsIdx_val_of_single rfl i q
/-- The right operand's row is the contraction's coordinate … -/
theorem rhs_mmB_0 (i : S1024x1.Idx) (q : dot_S1024x128_S128x1_S1024x1_1_0_0_1_n_n.contr.Idx) :
    (dot_S1024x128_S128x1_S1024x1_1_0_0_1_n_n.rhsIdx i q 0).val = (q ⟨0, by decide⟩).val :=
  dot_S1024x128_S128x1_S1024x1_1_0_0_1_n_n.rhsIdx_val_of_single rfl i q
/-- … its column the result's column. -/
theorem rhs_mmB_1 (i : S1024x1.Idx) (q : dot_S1024x128_S128x1_S1024x1_1_0_0_1_n_n.contr.Idx) :
    (dot_S1024x128_S128x1_S1024x1_1_0_0_1_n_n.rhsIdx i q 1).val = (i 1).val := by
  unfold DotDims.rhsIdx
  rw [dif_neg (show ¬(1 : Fin S128x1.rank) ∈ dot_S1024x128_S128x1_S1024x1_1_0_0_1_n_n.rhsBatch by decide), dif_pos (show (1 : Fin S128x1.rank) ∈ dot_S1024x128_S128x1_S1024x1_1_0_0_1_n_n.rhsNonContracting by decide)]
  rfl
/-- [1024,128] · [128,1] into zero, at (p, c): Σ_k l[p,k] · r[k,c] over the 128 features. -/
theorem mmB_apply (l : FVec Ideal S1024x128 .f32) (r : FVec Ideal S128x1 .f32) (p : Fin 1024) (c : Fin 1) :
    matmul (F := Ideal) dot_S1024x128_S128x1_S1024x1_1_0_0_1_n_n none l r (constant (F := Ideal) S1024x1 .f32 0x00000000#32) (ix2 p c)
      = ∑ k : Fin 128, l (ix2 p k) * r (ix2 k c) := by
  simp only [matmul]
  rw [Ideal.matmul_constant_zero_apply, ← Equiv.sum_comp (contrEquiv1 dot_S1024x128_S128x1_S1024x1_1_0_0_1_n_n 128 rfl rfl).symm]
  refine Finset.sum_congr rfl fun k _ => ?_
  have hk := contrEquiv1_symm_val dot_S1024x128_S128x1_S1024x1_1_0_0_1_n_n 128 rfl rfl k
  have el : dot_S1024x128_S128x1_S1024x1_1_0_0_1_n_n.lhsIdx (ix2 p c) ((contrEquiv1 dot_S1024x128_S128x1_S1024x1_1_0_0_1_n_n 128 rfl rfl).symm k) = ix2 p k := funext fun a => Fin.ext (by
    match a with
    | ⟨0, _⟩ => exact lhs_mmB_0 _ _
    | ⟨1, _⟩ => exact (lhs_mmB_1 _ _).trans hk)
  have er : dot_S1024x128_S128x1_S1024x1_1_0_0_1_n_n.rhsIdx (ix2 p c) ((contrEquiv1 dot_S1024x128_S128x1_S1024x1_1_0_0_1_n_n 128 rfl rfl).symm k) = ix2 k c := funext fun a => Fin.ext (by
    match a with
    | ⟨0, _⟩ => exact (rhs_mmB_0 _ _).trans hk
    | ⟨1, _⟩ => exact rhs_mmB_1 _ _)
  rw [el, er]

/-- [128,1024] · [1024,128]: the left operand's row is the result's row. -/
theorem lhs_mmC_0 (i : S128x128.Idx) (q : dot_S128x1024_S1024x128_S128x128_1_0_0_1_n_n.contr.Idx) :
    (dot_S128x1024_S1024x128_S128x128_1_0_0_1_n_n.lhsIdx i q 0).val = (i 0).val := by
  unfold DotDims.lhsIdx
  rw [dif_neg (show ¬(0 : Fin S128x1024.rank) ∈ dot_S128x1024_S1024x128_S128x128_1_0_0_1_n_n.lhsBatch by decide), dif_pos (show (0 : Fin S128x1024.rank) ∈ dot_S128x1024_S1024x128_S128x128_1_0_0_1_n_n.lhsNonContracting by decide)]
  rfl
/-- … its column the contraction's coordinate. -/
theorem lhs_mmC_1 (i : S128x128.Idx) (q : dot_S128x1024_S1024x128_S128x128_1_0_0_1_n_n.contr.Idx) :
    (dot_S128x1024_S1024x128_S128x128_1_0_0_1_n_n.lhsIdx i q 1).val = (q ⟨0, by decide⟩).val :=
  dot_S128x1024_S1024x128_S128x128_1_0_0_1_n_n.lhsIdx_val_of_single rfl i q
/-- The right operand's row is the contraction's coordinate … -/
theorem rhs_mmC_0 (i : S128x128.Idx) (q : dot_S128x1024_S1024x128_S128x128_1_0_0_1_n_n.contr.Idx) :
    (dot_S128x1024_S1024x128_S128x128_1_0_0_1_n_n.rhsIdx i q 0).val = (q ⟨0, by decide⟩).val :=
  dot_S128x1024_S1024x128_S128x128_1_0_0_1_n_n.rhsIdx_val_of_single rfl i q
/-- … its column the result's column. -/
theorem rhs_mmC_1 (i : S128x128.Idx) (q : dot_S128x1024_S1024x128_S128x128_1_0_0_1_n_n.contr.Idx) :
    (dot_S128x1024_S1024x128_S128x128_1_0_0_1_n_n.rhsIdx i q 1).val = (i 1).val := by
  unfold DotDims.rhsIdx
  rw [dif_neg (show ¬(1 : Fin S1024x128.rank) ∈ dot_S128x1024_S1024x128_S128x128_1_0_0_1_n_n.rhsBatch by decide), dif_pos (show (1 : Fin S1024x128.rank) ∈ dot_S128x1024_S1024x128_S128x128_1_0_0_1_n_n.rhsNonContracting by decide)]
  rfl
/-- [128,1024] · [1024,128] into zero, at (p, c): Σ_k l[p,k] · r[k,c] over the tile's 1024 rows. -/
theorem mmC_apply (l : FVec Ideal S128x1024 .f32) (r : FVec Ideal S1024x128 .f32) (p : Fin 128) (c : Fin 128) :
    matmul (F := Ideal) dot_S128x1024_S1024x128_S128x128_1_0_0_1_n_n none l r (constant (F := Ideal) S128x128 .f32 0x00000000#32) (ix2 p c)
      = ∑ k : Fin 1024, l (ix2 p k) * r (ix2 k c) := by
  simp only [matmul]
  rw [Ideal.matmul_constant_zero_apply, ← Equiv.sum_comp (contrEquiv1 dot_S128x1024_S1024x128_S128x128_1_0_0_1_n_n 1024 rfl rfl).symm]
  refine Finset.sum_congr rfl fun k _ => ?_
  have hk := contrEquiv1_symm_val dot_S128x1024_S1024x128_S128x128_1_0_0_1_n_n 1024 rfl rfl k
  have el : dot_S128x1024_S1024x128_S128x128_1_0_0_1_n_n.lhsIdx (ix2 p c) ((contrEquiv1 dot_S128x1024_S1024x128_S128x128_1_0_0_1_n_n 1024 rfl rfl).symm k) = ix2 p k := funext fun a => Fin.ext (by
    match a with
    | ⟨0, _⟩ => exact lhs_mmC_0 _ _
    | ⟨1, _⟩ => exact (lhs_mmC_1 _ _).trans hk)
  have er : dot_S128x1024_S1024x128_S128x128_1_0_0_1_n_n.rhsIdx (ix2 p c) ((contrEquiv1 dot_S128x1024_S1024x128_S128x128_1_0_0_1_n_n 1024 rfl rfl).symm k) = ix2 k c := funext fun a => Fin.ext (by
    match a with
    | ⟨0, _⟩ => exact (rhs_mmC_0 _ _).trans hk
    | ⟨1, _⟩ => exact rhs_mmC_1 _ _)
  rw [el, er]

/-- [128,1024] · [1024,1]: the left operand's row is the result's row. -/
theorem lhs_mmD_0 (i : S128x1.Idx) (q : dot_S128x1024_S1024x1_S128x1_1_0_0_1_n_n.contr.Idx) :
    (dot_S128x1024_S1024x1_S128x1_1_0_0_1_n_n.lhsIdx i q 0).val = (i 0).val := by
  unfold DotDims.lhsIdx
  rw [dif_neg (show ¬(0 : Fin S128x1024.rank) ∈ dot_S128x1024_S1024x1_S128x1_1_0_0_1_n_n.lhsBatch by decide), dif_pos (show (0 : Fin S128x1024.rank) ∈ dot_S128x1024_S1024x1_S128x1_1_0_0_1_n_n.lhsNonContracting by decide)]
  rfl
/-- … its column the contraction's coordinate. -/
theorem lhs_mmD_1 (i : S128x1.Idx) (q : dot_S128x1024_S1024x1_S128x1_1_0_0_1_n_n.contr.Idx) :
    (dot_S128x1024_S1024x1_S128x1_1_0_0_1_n_n.lhsIdx i q 1).val = (q ⟨0, by decide⟩).val :=
  dot_S128x1024_S1024x1_S128x1_1_0_0_1_n_n.lhsIdx_val_of_single rfl i q
/-- The right operand's row is the contraction's coordinate … -/
theorem rhs_mmD_0 (i : S128x1.Idx) (q : dot_S128x1024_S1024x1_S128x1_1_0_0_1_n_n.contr.Idx) :
    (dot_S128x1024_S1024x1_S128x1_1_0_0_1_n_n.rhsIdx i q 0).val = (q ⟨0, by decide⟩).val :=
  dot_S128x1024_S1024x1_S128x1_1_0_0_1_n_n.rhsIdx_val_of_single rfl i q
/-- … its column the result's column. -/
theorem rhs_mmD_1 (i : S128x1.Idx) (q : dot_S128x1024_S1024x1_S128x1_1_0_0_1_n_n.contr.Idx) :
    (dot_S128x1024_S1024x1_S128x1_1_0_0_1_n_n.rhsIdx i q 1).val = (i 1).val := by
  unfold DotDims.rhsIdx
  rw [dif_neg (show ¬(1 : Fin S1024x1.rank) ∈ dot_S128x1024_S1024x1_S128x1_1_0_0_1_n_n.rhsBatch by decide), dif_pos (show (1 : Fin S1024x1.rank) ∈ dot_S128x1024_S1024x1_S128x1_1_0_0_1_n_n.rhsNonContracting by decide)]
  rfl
/-- [128,1024] · [1024,1] into zero, at (p, c): Σ_k l[p,k] · r[k,c] over the tile's 1024 rows. -/
theorem mmD_apply (l : FVec Ideal S128x1024 .f32) (r : FVec Ideal S1024x1 .f32) (p : Fin 128) (c : Fin 1) :
    matmul (F := Ideal) dot_S128x1024_S1024x1_S128x1_1_0_0_1_n_n none l r (constant (F := Ideal) S128x1 .f32 0x00000000#32) (ix2 p c)
      = ∑ k : Fin 1024, l (ix2 p k) * r (ix2 k c) := by
  simp only [matmul]
  rw [Ideal.matmul_constant_zero_apply, ← Equiv.sum_comp (contrEquiv1 dot_S128x1024_S1024x1_S128x1_1_0_0_1_n_n 1024 rfl rfl).symm]
  refine Finset.sum_congr rfl fun k _ => ?_
  have hk := contrEquiv1_symm_val dot_S128x1024_S1024x1_S128x1_1_0_0_1_n_n 1024 rfl rfl k
  have el : dot_S128x1024_S1024x1_S128x1_1_0_0_1_n_n.lhsIdx (ix2 p c) ((contrEquiv1 dot_S128x1024_S1024x1_S128x1_1_0_0_1_n_n 1024 rfl rfl).symm k) = ix2 p k := funext fun a => Fin.ext (by
    match a with
    | ⟨0, _⟩ => exact lhs_mmD_0 _ _
    | ⟨1, _⟩ => exact (lhs_mmD_1 _ _).trans hk)
  have er : dot_S128x1024_S1024x1_S128x1_1_0_0_1_n_n.rhsIdx (ix2 p c) ((contrEquiv1 dot_S128x1024_S1024x1_S128x1_1_0_0_1_n_n 1024 rfl rfl).symm k) = ix2 k c := funext fun a => Fin.ext (by
    match a with
    | ⟨0, _⟩ => exact (rhs_mmD_0 _ _).trans hk
    | ⟨1, _⟩ => exact rhs_mmD_1 _ _)
  rw [el, er]

/-! ## The feature map of the keys, and its transpose -/

/-- The feature map of the tile's keys at (r, d): σ of the key block's entry (0, r, d) — the select on "x > 0" between
    x + 1 and e^(min x 0) is σ's own spelling, and the block's leading unit axis drops. -/
theorem pay7_apply (x0 : FVec Ideal S1x1024x128 .f32) (r : Fin 1024) (d : Fin 128) :
    k0_pay7 (F := Ideal) x0 (ix2 r d) = sg (x0 (ix3 (0 : Fin 1) r d)) := by
  have h : k0_pay7 (F := Ideal) x0 (ix2 r d)
      = sg (shapeCast S1024x128 x0 shapeCasts_S1x1024x128_S1024x128 (ix2 r d)) := rfl
  rw [h, shapeCast_1ab_ab_apply]

/-- Its transpose at (d, r) is the same entry. -/
theorem pay8_apply (x0 : FVec Ideal S1x1024x128 .f32) (d : Fin 128) (r : Fin 1024) :
    k0_pay8 (F := Ideal) x0 (ix2 d r) = sg (x0 (ix3 (0 : Fin 1) r d)) := by
  unfold k0_pay8
  exact (transpose_ix2_apply (k0_pay7 (F := Ideal) x0) _ d r).trans (pay7_apply x0 r d)

/-! ## The old memory's prediction, the old normaliser, and their quotient -/

/-- σ(k) · M at (r, e): Σ_d' σ(k[r,d']) · M[d',e]. -/
theorem pred_apply (x0 : FVec Ideal S1x1024x128 .f32) (M : FVec Ideal S1x128x128 .f32) (r : Fin 1024) (e : Fin 128) :
    matmul (F := Ideal) dot_S1024x128_S128x128_S1024x128_1_0_0_1_n_n none (k0_pay7 (F := Ideal) x0)
        (shapeCast S128x128 M shapeCasts_S1x128x128_S128x128) (constant (F := Ideal) S1024x128 .f32 0x00000000#32) (ix2 r e)
      = ∑ d' : Fin 128, sg (x0 (ix3 (0 : Fin 1) r d')) * M (ix3 (0 : Fin 1) d' e) := by
  rw [mmA_apply]
  refine Finset.sum_congr rfl fun k _ => ?_
  rw [pay7_apply, shapeCast_1ab_ab_apply]

/-- σ(k) · z at (r, 0): Σ_d' σ(k[r,d']) · z[d',0]. -/
theorem nrm_apply (x0 : FVec Ideal S1x1024x128 .f32) (Z : FVec Ideal S1x128x1 .f32) (r : Fin 1024) :
    matmul (F := Ideal) dot_S1024x128_S128x1_S1024x1_1_0_0_1_n_n none (k0_pay7 (F := Ideal) x0)
        (shapeCast S128x1 Z shapeCasts_S1x128x1_S128x1) (constant (F := Ideal) S1024x1 .f32 0x00000000#32) (ix2 r (0 : Fin 1))
      = ∑ d' : Fin 128, sg (x0 (ix3 (0 : Fin 1) r d')) * Z (ix3 (0 : Fin 1) d' (0 : Fin 1)) := by
  rw [mmB_apply]
  refine Finset.sum_congr rfl fun k _ => ?_
  rw [pay7_apply, shapeCast_1ab_ab_apply]

/-- The prediction divided by the normaliser plus ε, the column of normalisers spread over the 128 columns: the term
    both kernels share (the retrieve kernel's result; the subtrahend of the update kernel's residual). -/
def quotV (x0 : FVec Ideal S1x1024x128 .f32) (M : FVec Ideal S1x128x128 .f32) (Z : FVec Ideal S1x128x1 .f32) :
    FVec Ideal S1024x128 .f32 :=
  divf
    (matmul (F := Ideal) dot_S1024x128_S128x128_S1024x128_1_0_0_1_n_n none (k0_pay7 (F := Ideal) x0)
      (shapeCast S128x128 M shapeCasts_S1x128x128_S128x128) (constant (F := Ideal) S1024x128 .f32 0x00000000#32))
    (broadcastTo S1024x128
      (addf
        (matmul (F := Ideal) dot_S1024x128_S128x1_S1024x1_1_0_0_1_n_n none (k0_pay7 (F := Ideal) x0)
          (shapeCast S128x1 Z shapeCasts_S1x128x1_S128x1) (constant (F := Ideal) S1024x1 .f32 0x00000000#32))
        (broadcast S1024x1 (Scalar.ofBits (F := Ideal) .f32 0x358637BD#32)))
      broadcasts_S1024x1_S1024x128)

/-- That quotient at (r, e). -/
theorem quotV_apply (x0 : FVec Ideal S1x1024x128 .f32) (M : FVec Ideal S1x128x128 .f32) (Z : FVec Ideal S1x128x1 .f32)
    (r : Fin 1024) (e : Fin 128) :
    quotV x0 M Z (ix2 r e)
      = Ideal.div (∑ d' : Fin 128, sg (x0 (ix3 (0 : Fin 1) r d')) * M (ix3 (0 : Fin 1) d' e))
          ((∑ d' : Fin 128, sg (x0 (ix3 (0 : Fin 1) r d')) * Z (ix3 (0 : Fin 1) d' (0 : Fin 1))) + eps) := by
  unfold quotV
  rw [divf_apply, pred_apply, broadcastTo_a1_ab_apply, addf_apply, nrm_apply, broadcast_apply]
  rfl

/-! ## The seven payloads -/

/-- The reset of the running memory matrix copies the head's M block. -/
theorem resetM_apply (x2 : FVec Ideal S1x128x128 .f32) (d e : Fin 128) :
    k0_pay5 (F := Ideal) x2 (ix2 d e) = x2 (ix3 (0 : Fin 1) d e) := by
  unfold k0_pay5
  rw [shapeCast_self]
  exact shapeCast_1ab_ab_apply x2 _ d e

/-- The reset of the running normaliser copies the head's z block. -/
theorem resetZ_apply (x3 : FVec Ideal S1x128x1 .f32) (d : Fin 128) :
    k0_pay6 (F := Ideal) x3 (ix2 d (0 : Fin 1)) = x3 (ix3 (0 : Fin 1) d (0 : Fin 1)) := by
  unfold k0_pay6
  rw [shapeCast_self]
  exact shapeCast_1ab_ab_apply x3 _ d (0 : Fin 1)

/-- One tile's update of the running memory matrix, at (d, e). -/
theorem stepM_apply (x0 x1 : FVec Ideal S1x1024x128 .f32) (x2 : FVec Ideal S1x128x128 .f32) (x3 : FVec Ideal S1x128x1 .f32)
    (acc : FVec Ideal S128x128 .f32) (d e : Fin 128) :
    k0_pay1 (F := Ideal) (k0_pay10 x0 x1 x2 x3 acc) (ix2 d e)
      = acc (ix2 d e) + ∑ r : Fin 1024, sg (x0 (ix3 (0 : Fin 1) r d))
          * (x1 (ix3 (0 : Fin 1) r e) - Ideal.div (∑ d' : Fin 128, sg (x0 (ix3 (0 : Fin 1) r d')) * x2 (ix3 (0 : Fin 1) d' e))
              ((∑ d' : Fin 128, sg (x0 (ix3 (0 : Fin 1) r d')) * x3 (ix3 (0 : Fin 1) d' (0 : Fin 1))) + eps)) := by
  unfold k0_pay1
  rw [shapeCast_self]
  have h : k0_pay10 (F := Ideal) x0 x1 x2 x3 acc
      = addf acc (matmul (F := Ideal) dot_S128x1024_S1024x128_S128x128_1_0_0_1_n_n none (k0_pay8 (F := Ideal) x0)
          (subf (shapeCast S1024x128 x1 shapeCasts_S1x1024x128_S1024x128) (quotV x0 x2 x3))
          (constant (F := Ideal) S128x128 .f32 0x00000000#32)) := rfl
  rw [h, addf_apply, mmC_apply]
  refine congrArg (acc (ix2 d e) + ·) (Finset.sum_congr rfl fun k _ => ?_)
  rw [pay8_apply, subf_apply, shapeCast_1ab_ab_apply, quotV_apply]

/-- One tile's update of the running normaliser, at d. -/
theorem stepZ_apply (x0 : FVec Ideal S1x1024x128 .f32) (accz : FVec Ideal S128x1 .f32) (d : Fin 128) :
    k0_pay2 (F := Ideal) (k0_pay9 x0) accz (ix2 d (0 : Fin 1)) = accz (ix2 d (0 : Fin 1)) + ∑ r : Fin 1024, sg (x0 (ix3 (0 : Fin 1) r d)) := by
  unfold k0_pay2
  rw [shapeCast_self, addf_apply]
  have h : k0_pay9 (F := Ideal) x0
      = matmul (F := Ideal) dot_S128x1024_S1024x1_S128x1_1_0_0_1_n_n none (k0_pay8 (F := Ideal) x0)
          (broadcast S1024x1 (Scalar.ofBits (F := Ideal) .f32 0x3F800000#32)) (constant (F := Ideal) S128x1 .f32 0x00000000#32) := rfl
  rw [h, mmD_apply]
  refine congrArg (accz (ix2 d (0 : Fin 1)) + ·) (Finset.sum_congr rfl fun k _ => ?_)
  rw [pay8_apply, broadcast_apply]
  show sg (x0 (ix3 (0 : Fin 1) k d)) * Ideal.ofBits .f32 0x3F800000#32 = _
  rw [show Ideal.ofBits .f32 0x3F800000#32 = 1 from IdealRules.sign_bit.ideal_onePat .f32, mul_one]

/-- The copy of the running memory matrix into the output window's block. -/
theorem outM_apply (acc : FVec Ideal S128x128 .f32) (d e : Fin 128) :
    k0_pay3 (F := Ideal) acc (ix3 (0 : Fin 1) d e) = acc (ix2 d e) := by
  unfold k0_pay3
  exact shapeCast_ab_1ab_apply acc _ (0 : Fin 1) d e

/-- The copy of the running normaliser into the output window's block. -/
theorem outZ_apply (accz : FVec Ideal S128x1 .f32) (d : Fin 128) :
    k0_pay4 (F := Ideal) accz (ix3 (0 : Fin 1) d (0 : Fin 1)) = accz (ix2 d (0 : Fin 1)) := by
  unfold k0_pay4
  exact shapeCast_ab_1ab_apply accz _ (0 : Fin 1) d (0 : Fin 1)

/-- The retrieve kernel's output element at row r, column e of its block. -/
theorem retr_apply (x0 : FVec Ideal S1x1024x128 .f32) (x1 : FVec Ideal S1x128x128 .f32) (x2 : FVec Ideal S1x128x1 .f32)
    (r : Fin 1024) (e : Fin 128) :
    k1_pay1 (F := Ideal) x0 x1 x2 (ix3 (0 : Fin 1) r e)
      = Ideal.div (∑ d : Fin 128, sg (x0 (ix3 (0 : Fin 1) r d)) * x1 (ix3 (0 : Fin 1) d e))
          ((∑ d : Fin 128, sg (x0 (ix3 (0 : Fin 1) r d)) * x2 (ix3 (0 : Fin 1) d (0 : Fin 1))) + eps) := by
  have h : k1_pay1 (F := Ideal) x0 x1 x2 = shapeCast S1x1024x128 (quotV x0 x1 x2) shapeCasts_S1024x128_S1x1024x128 := rfl
  rw [h, shapeCast_ab_1ab_apply, quotV_apply]

end Cert.KernelIdeal.Hand

end
-- ==== Proof.KI.Vals0.lean ====
/- The update region's two result arrays after all 256 points. Head g's last tile is point 4g + 3; what is written
   back there is the running pair after four tiles: the reset on tile 0 followed by the four tiles' updates. Read one
   element at a time through the blocks (point t reads head t / 4, rows 1024·(t % 4) + r), that is the head's M (or z)
   with the four tiles' sums added one after the other, which is the sum over the head's 4096 rows. Each head's block
   is written exactly once, and the blocks of the 64 heads cover the array. -/
import proofs.«172453_j88390426951900_1_alg».proof.Proof.KI.Pieces
import proofs.«172453_j88390426951900_1_alg».proof.Proof.KI.PayIdx

set_option maxRecDepth 16384

noncomputable section

open scoped BigOperators

namespace Cert.KernelIdeal.Hand

open Cert.KernelIdeal Cert.KernelIdeal.Gen Cert.Spec
open Idealize.ShloMosaic Idealize.ShloMosaic.TcCoe Idealize.ShloMosaic.ValueIdx
open Idealize.SL.Sem
open Idealize.ShloMosaic.Pipeline (Dat)

/-! ## Auxiliary facts: the index maps, the blocks as parts of the arrays, the running pair, the write-backs -/

namespace Vals0

/-- The block index of every window of the update kernel at point t: head t / 4 on the first axis, tile t % 4 on the
    row axis of the keys and values, zero elsewhere. -/
theorem idx0 : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = t.val % 4 ∧ win0_1.index t (2 : Fin 3) = 0
    ∧ win0_2.index t (0 : Fin 3) = t.val / 4 ∧ win0_2.index t (1 : Fin 3) = 0 ∧ win0_2.index t (2 : Fin 3) = 0
    ∧ win0_3.index t (0 : Fin 3) = t.val / 4 ∧ win0_3.index t (1 : Fin 3) = 0 ∧ win0_3.index t (2 : Fin 3) = 0
    ∧ win0_4.index t (0 : Fin 3) = t.val / 4 ∧ win0_4.index t (1 : Fin 3) = 0 ∧ win0_4.index t (2 : Fin 3) = 0
    ∧ win0_5.index t (0 : Fin 3) = t.val / 4 ∧ win0_5.index t (1 : Fin 3) = 0 ∧ win0_5.index t (2 : Fin 3) = 0 :=
  (by decide +kernel : ∀ t : Fin grid0.N, _)

section Entry
variable (V : (c : Dev nD) → (b : Ref sig .tc) → Buf (Elt Ideal) ((c : Thread nD τ).loc b))

/-- The four input arrays as the update region finds them, and their blocks at a point. -/
abbrev karr (c : Dev nD) : S64x4096x128.Idx → EReal := V c main_v1
abbrev varr (c : Dev nD) : S64x4096x128.Idx → EReal := V c main_v2
abbrev marr (c : Dev nD) : S64x128x128.Idx → EReal := V c main_v3
abbrev zarr (c : Dev nD) : S64x128x1.Idx → EReal := V c main_v4
abbrev kblk (c : Dev nD) (t : Fin cfg0.N) : FVec Ideal S1x1024x128 .f32 := iblk0 V c 0 t
abbrev vblk (c : Dev nD) (t : Fin cfg0.N) : FVec Ideal S1x1024x128 .f32 := iblk0 V c 1 t
abbrev mblk (c : Dev nD) (t : Fin cfg0.N) : FVec Ideal S1x128x128 .f32 := iblk0 V c 2 t
abbrev zblk (c : Dev nD) (t : Fin cfg0.N) : FVec Ideal S1x128x1 .f32 := iblk0 V c 3 t

/-- The key block at point t is rows 1024 (t % 4) … of head t / 4 of the key array. -/
theorem kblk_apply (c : Dev nD) (t : Fin cfg0.N) (r : Fin 1024) (d : Fin 128) (g : Fin 64) (s : Fin 4096)
    (hg : g.val = t.val / 4) (hs : s.val = 1024 * (t.val % 4) + r.val) :
    kblk V c t (ix3 (0 : Fin 1) r d) = karr V c (ix3 g s d) := by
  obtain ⟨e0, e1, e2, -⟩ := idx0 t
  show V c main_v1 (((cfg0.win 0).blk t).view.emb (ix3 (0 : Fin 1) r d)) = V c main_v1 (ix3 g s d)
  refine congrArg (V c main_v1) ?_
  funext a; apply Fin.ext
  match a with
  | ⟨0, _⟩ => show win0_0.index t (0 : Fin 3) * 1 + 1 * 0 = g.val; omega
  | ⟨1, _⟩ => show win0_0.index t (1 : Fin 3) * 1024 + 1 * r.val = s.val; omega
  | ⟨2, _⟩ => show win0_0.index t (2 : Fin 3) * 128 + 1 * d.val = d.val; omega

/-- The value block at point t is the same rows of the value array. -/
theorem vblk_apply (c : Dev nD) (t : Fin cfg0.N) (r : Fin 1024) (e : Fin 128) (g : Fin 64) (s : Fin 4096)
    (hg : g.val = t.val / 4) (hs : s.val = 1024 * (t.val % 4) + r.val) :
    vblk V c t (ix3 (0 : Fin 1) r e) = varr V c (ix3 g s e) := by
  obtain ⟨-, -, -, e0, e1, e2, -⟩ := idx0 t
  show V c main_v2 (((cfg0.win 1).blk t).view.emb (ix3 (0 : Fin 1) r e)) = V c main_v2 (ix3 g s e)
  refine congrArg (V c main_v2) ?_
  funext a; apply Fin.ext
  match a with
  | ⟨0, _⟩ => show win0_1.index t (0 : Fin 3) * 1 + 1 * 0 = g.val; omega
  | ⟨1, _⟩ => show win0_1.index t (1 : Fin 3) * 1024 + 1 * r.val = s.val; omega
  | ⟨2, _⟩ => show win0_1.index t (2 : Fin 3) * 128 + 1 * e.val = e.val; omega

/-- The memory block at point t is head t / 4 of the memory array, whole. -/
theorem mblk_apply (c : Dev nD) (t : Fin cfg0.N) (d e : Fin 128) (g : Fin 64) (hg : g.val = t.val / 4) :
    mblk V c t (ix3 (0 : Fin 1) d e) = marr V c (ix3 g d e) := by
  obtain ⟨-, -, -, -, -, -, e0, e1, e2, -⟩ := idx0 t
  show V c main_v3 (((cfg0.win 2).blk t).view.emb (ix3 (0 : Fin 1) d e)) = V c main_v3 (ix3 g d e)
  refine congrArg (V c main_v3) ?_
  funext a; apply Fin.ext
  match a with
  | ⟨0, _⟩ => show win0_2.index t (0 : Fin 3) * 1 + 1 * 0 = g.val; omega
  | ⟨1, _⟩ => show win0_2.index t (1 : Fin 3) * 128 + 1 * d.val = d.val; omega
  | ⟨2, _⟩ => show win0_2.index t (2 : Fin 3) * 128 + 1 * e.val = e.val; omega

/-- The normaliser block at point t is head t / 4 of the normaliser array, whole. -/
theorem zblk_apply (c : Dev nD) (t : Fin cfg0.N) (d : Fin 128) (g : Fin 64) (hg : g.val = t.val / 4) :
    zblk V c t (ix3 (0 : Fin 1) d (0 : Fin 1)) = zarr V c (ix3 g d (0 : Fin 1)) := by
  obtain ⟨-, -, -, -, -, -, -, -, -, e0, e1, e2, -⟩ := idx0 t
  show V c main_v4 (((cfg0.win 3).blk t).view.emb (ix3 (0 : Fin 1) d (0 : Fin 1))) = V c main_v4 (ix3 g d (0 : Fin 1))
  refine congrArg (V c main_v4) ?_
  funext a; apply Fin.ext
  match a with
  | ⟨0, _⟩ => show win0_3.index t (0 : Fin 3) * 1 + 1 * 0 = g.val; omega
  | ⟨1, _⟩ => show win0_3.index t (1 : Fin 3) * 128 + 1 * d.val = d.val; omega
  | ⟨2, _⟩ => show win0_3.index t (2 : Fin 3) * 1 + 1 * 0 = 0; omega

/-! ## One tile's contribution -/

/-- What the tile of point t adds to the running memory matrix at (d, e), over the point's blocks. -/
def tileM (c : Dev nD) (t : Fin cfg0.N) (d e : Fin 128) : EReal :=
  ∑ r : Fin 1024, sg (kblk V c t (ix3 (0 : Fin 1) r d))
    * (vblk V c t (ix3 (0 : Fin 1) r e) - Ideal.div (∑ d' : Fin 128, sg (kblk V c t (ix3 (0 : Fin 1) r d')) * mblk V c t (ix3 (0 : Fin 1) d' e))
        ((∑ d' : Fin 128, sg (kblk V c t (ix3 (0 : Fin 1) r d')) * zblk V c t (ix3 (0 : Fin 1) d' (0 : Fin 1))) + eps))

/-- What the tile of point t adds to the running normaliser at d. -/
def tileZ (c : Dev nD) (t : Fin cfg0.N) (d : Fin 128) : EReal :=
  ∑ r : Fin 1024, sg (kblk V c t (ix3 (0 : Fin 1) r d))

/-- Tile j of head g, read off the arrays: the summand of the new memory matrix over the tile's rows. -/
theorem tileM_eq (c : Dev nD) (t : Fin cfg0.N) (g : Fin 64) (j : Fin 4) (hg : g.val = t.val / 4) (hj : j.val = t.val % 4)
    (d e : Fin 128) :
    tileM V c t d e = ∑ r : Fin 1024, sg (karr V c (ix3 g (tileRow j r) d))
      * dv (karr V c) (varr V c) (marr V c) (zarr V c) g (tileRow j r) e := by
  have hs : ∀ r : Fin 1024, (tileRow j r).val = 1024 * (t.val % 4) + r.val := fun r => by
    show 1024 * j.val + r.val = _; rw [hj]
  have hk : ∀ (r : Fin 1024) (d' : Fin 128), kblk V c t (ix3 (0 : Fin 1) r d') = karr V c (ix3 g (tileRow j r) d') :=
    fun r d' => kblk_apply V c t r d' g (tileRow j r) hg (hs r)
  have hv : ∀ (r : Fin 1024), vblk V c t (ix3 (0 : Fin 1) r e) = varr V c (ix3 g (tileRow j r) e) :=
    fun r => vblk_apply V c t r e g (tileRow j r) hg (hs r)
  have hm : ∀ (d' : Fin 128), mblk V c t (ix3 (0 : Fin 1) d' e) = marr V c (ix3 g d' e) :=
    fun d' => mblk_apply V c t d' e g hg
  have hz : ∀ (d' : Fin 128), zblk V c t (ix3 (0 : Fin 1) d' (0 : Fin 1)) = zarr V c (ix3 g d' (0 : Fin 1)) :=
    fun d' => zblk_apply V c t d' g hg
  unfold tileM dv pred nrm
  refine Finset.sum_congr rfl fun r _ => ?_
  rw [hk r d, hv r]
  rw [Finset.sum_congr rfl (fun d' _ => by rw [hk r d', hm d'] :
        ∀ d' ∈ Finset.univ, sg (kblk V c t (ix3 (0 : Fin 1) r d')) * mblk V c t (ix3 (0 : Fin 1) d' e)
          = sg (karr V c (ix3 g (tileRow j r) d')) * marr V c (ix3 g d' e)),
      Finset.sum_congr rfl (fun d' _ => by rw [hk r d', hz d'] :
        ∀ d' ∈ Finset.univ, sg (kblk V c t (ix3 (0 : Fin 1) r d')) * zblk V c t (ix3 (0 : Fin 1) d' (0 : Fin 1))
          = sg (karr V c (ix3 g (tileRow j r) d')) * zarr V c (ix3 g d' (0 : Fin 1)))]

theorem tileZ_eq (c : Dev nD) (t : Fin cfg0.N) (g : Fin 64) (j : Fin 4) (hg : g.val = t.val / 4) (hj : j.val = t.val % 4)
    (d : Fin 128) :
    tileZ V c t d = ∑ r : Fin 1024, sg (karr V c (ix3 g (tileRow j r) d)) := by
  unfold tileZ
  refine Finset.sum_congr rfl fun r _ => ?_
  rw [kblk_apply V c t r d g (tileRow j r) hg (by show 1024 * j.val + r.val = _; rw [hj])]

/-! ## The running pair, one element at a time -/

/-- The running memory matrix and the running normaliser after point n. -/
abbrev accM (c : Dev nD) (n : ℕ) (hn : n < cfg0.N) : FVec Ideal S128x128 .f32 := (accAt0 V c n hn).1
abbrev accZ (c : Dev nD) (n : ℕ) (hn : n < cfg0.N) : FVec Ideal S128x1 .f32 := (accAt0 V c n hn).2

/-- The point before. -/
def prevPt (t : Fin cfg0.N) : Fin cfg0.N := ⟨t.val - 1, Nat.lt_of_le_of_lt (Nat.sub_le _ _) t.isLt⟩

/-- On a head's first tile the running matrix is the head's M plus the tile's sum. -/
theorem accM_first (c : Dev nD) (t : Fin cfg0.N) (h0 : t.val % 4 = 0) (d e : Fin 128) :
    accM V c t.val t.isLt (ix2 d e) = mblk V c t (ix3 (0 : Fin 1) d e) + tileM V c t d e := by
  have h1 : ¬t.val % 4 = 3 := by omega
  have e' : accM V c t.val t.isLt = (sA V c t h0 h1).1 := congrArg Prod.fst (accAt0_A V c t h0 h1)
  rw [e', sA_eq V c t h0 h1]
  refine (stepM_apply (kblk V c t) (vblk V c t) (mblk V c t) (zblk V c t) (k0_pay5 (F := Ideal) (mblk V c t)) d e).trans ?_
  rw [resetM_apply (mblk V c t) d e]
  rfl

/-- On every other tile it is what the tile before left plus the tile's sum. -/
theorem accM_next (c : Dev nD) (t : Fin cfg0.N) (h0 : ¬t.val % 4 = 0) (d e : Fin 128) :
    accM V c t.val t.isLt (ix2 d e) = accM V c (prevPt t).val (prevPt t).isLt (ix2 d e) + tileM V c t d e := by
  by_cases h1 : t.val % 4 = 3
  · have e' : accM V c t.val t.isLt = (sC V c t h0 h1 (accAt0 V c (prevPt t).val (prevPt t).isLt)).1 :=
      congrArg Prod.fst (accAt0_C V c t h0 h1)
    rw [e', sC_eq V c t h0 h1 _]
    exact stepM_apply (kblk V c t) (vblk V c t) (mblk V c t) (zblk V c t) (accM V c (prevPt t).val (prevPt t).isLt) d e
  · have e' : accM V c t.val t.isLt = (sB V c t h0 h1 (accAt0 V c (prevPt t).val (prevPt t).isLt)).1 :=
      congrArg Prod.fst (accAt0_B V c t h0 h1)
    rw [e', sB_eq V c t h0 h1 _]
    exact stepM_apply (kblk V c t) (vblk V c t) (mblk V c t) (zblk V c t) (accM V c (prevPt t).val (prevPt t).isLt) d e

theorem accZ_first (c : Dev nD) (t : Fin cfg0.N) (h0 : t.val % 4 = 0) (d : Fin 128) :
    accZ V c t.val t.isLt (ix2 d (0 : Fin 1)) = zblk V c t (ix3 (0 : Fin 1) d (0 : Fin 1)) + tileZ V c t d := by
  have h1 : ¬t.val % 4 = 3 := by omega
  have e' : accZ V c t.val t.isLt = (sA V c t h0 h1).2 := congrArg Prod.snd (accAt0_A V c t h0 h1)
  rw [e', sA_eq V c t h0 h1]
  refine (stepZ_apply (kblk V c t) (k0_pay6 (F := Ideal) (zblk V c t)) d).trans ?_
  rw [resetZ_apply (zblk V c t) d]
  rfl

theorem accZ_next (c : Dev nD) (t : Fin cfg0.N) (h0 : ¬t.val % 4 = 0) (d : Fin 128) :
    accZ V c t.val t.isLt (ix2 d (0 : Fin 1)) = accZ V c (prevPt t).val (prevPt t).isLt (ix2 d (0 : Fin 1)) + tileZ V c t d := by
  by_cases h1 : t.val % 4 = 3
  · have e' : accZ V c t.val t.isLt = (sC V c t h0 h1 (accAt0 V c (prevPt t).val (prevPt t).isLt)).2 :=
      congrArg Prod.snd (accAt0_C V c t h0 h1)
    rw [e', sC_eq V c t h0 h1 _]
    exact stepZ_apply (kblk V c t) (accZ V c (prevPt t).val (prevPt t).isLt) d
  · have e' : accZ V c t.val t.isLt = (sB V c t h0 h1 (accAt0 V c (prevPt t).val (prevPt t).isLt)).2 :=
      congrArg Prod.snd (accAt0_B V c t h0 h1)
    rw [e', sB_eq V c t h0 h1 _]
    exact stepZ_apply (kblk V c t) (accZ V c (prevPt t).val (prevPt t).isLt) d

/-- After a head's last tile: the head's M with the four tiles' sums added one after the other. -/
theorem accM_last (c : Dev nD) (t : Fin cfg0.N) (h3 : t.val % 4 = 3) (d e : Fin 128) :
    accM V c t.val t.isLt (ix2 d e)
      = (((mblk V c (prevPt (prevPt (prevPt t))) (ix3 (0 : Fin 1) d e) + tileM V c (prevPt (prevPt (prevPt t))) d e)
          + tileM V c (prevPt (prevPt t)) d e) + tileM V c (prevPt t) d e) + tileM V c t d e := by
  have e1 : (prevPt t).val = t.val - 1 := rfl
  have e2 : (prevPt (prevPt t)).val = t.val - 1 - 1 := rfl
  have e3 : (prevPt (prevPt (prevPt t))).val = t.val - 1 - 1 - 1 := rfl
  rw [accM_next V c t (by omega) d e, accM_next V c (prevPt t) (by omega) d e,
    accM_next V c (prevPt (prevPt t)) (by omega) d e, accM_first V c (prevPt (prevPt (prevPt t))) (by omega) d e]

theorem accZ_last (c : Dev nD) (t : Fin cfg0.N) (h3 : t.val % 4 = 3) (d : Fin 128) :
    accZ V c t.val t.isLt (ix2 d (0 : Fin 1))
      = (((zblk V c (prevPt (prevPt (prevPt t))) (ix3 (0 : Fin 1) d (0 : Fin 1)) + tileZ V c (prevPt (prevPt (prevPt t))) d)
          + tileZ V c (prevPt (prevPt t)) d) + tileZ V c (prevPt t) d) + tileZ V c t d := by
  have e1 : (prevPt t).val = t.val - 1 := rfl
  have e2 : (prevPt (prevPt t)).val = t.val - 1 - 1 := rfl
  have e3 : (prevPt (prevPt (prevPt t))).val = t.val - 1 - 1 - 1 := rfl
  rw [accZ_next V c t (by omega) d, accZ_next V c (prevPt t) (by omega) d,
    accZ_next V c (prevPt (prevPt t)) (by omega) d, accZ_first V c (prevPt (prevPt (prevPt t))) (by omega) d]

/-! ## What a head's last tile writes back -/

/-- The memory output buffer after a head's last tile, at (0, d, e), is the new memory matrix at (head, d, e). -/
theorem out4_pt (c : Dev nD) (t : Fin cfg0.N) (h3 : t.val % 4 = 3) (y : S1x128x128.Idx) (i : S64x128x128.Idx)
    (hi0 : (i 0).val = t.val / 4) (hi1 : (i 1).val = (y 1).val) (hi2 : (i 2).val = (y 2).val) :
    (outAt0 V c t).1 y = newM (karr V c) (varr V c) (marr V c) (zarr V c) i := by
  have h0 : ¬t.val % 4 = 0 := by omega
  obtain ⟨g, d, e, rfl⟩ : ∃ (g : Fin 64) (d e : Fin 128), i = ix3 g d e := ⟨i 0, i 1, i 2, eq_ix3 i⟩
  obtain ⟨a, d', e', rfl⟩ : ∃ (a : Fin 1) (d' e' : Fin 128), y = ix3 a d' e' := ⟨y 0, y 1, y 2, eq_ix3 y⟩
  obtain rfl : (0 : Fin 1) = a := Subsingleton.elim _ _
  obtain rfl : d = d' := Fin.ext hi1
  obtain rfl : e = e' := Fin.ext hi2
  have hg : g.val = t.val / 4 := hi0
  have e1 : (prevPt t).val = t.val - 1 := rfl
  have e2 : (prevPt (prevPt t)).val = t.val - 1 - 1 := rfl
  have e3 : (prevPt (prevPt (prevPt t))).val = t.val - 1 - 1 - 1 := rfl
  rw [outAt0_C V c t h0 h3, oC_eq V c t h0 h3 _, ← accAt0_C V c t h0 h3]
  refine (outM_apply (accM V c t.val t.isLt) d e).trans ?_
  rw [accM_last V c t h3 d e,
    tileM_eq V c (prevPt (prevPt (prevPt t))) g 0 (by omega) (by show 0 = _; omega) d e,
    tileM_eq V c (prevPt (prevPt t)) g 1 (by omega) (by show 1 = _; omega) d e,
    tileM_eq V c (prevPt t) g 2 (by omega) (by show 2 = _; omega) d e,
    tileM_eq V c t g 3 hg (by show 3 = _; omega) d e,
    mblk_apply V c (prevPt (prevPt (prevPt t))) d e g (by omega)]
  exact acc_tiles (marr V c (ix3 g d e))
    (fun s => sg (karr V c (ix3 g s d)) * dv (karr V c) (varr V c) (marr V c) (zarr V c) g s e)

/-- The normaliser output buffer after a head's last tile, at (0, d, 0), is the new normaliser at (head, d, 0). -/
theorem out5_pt (c : Dev nD) (t : Fin cfg0.N) (h3 : t.val % 4 = 3) (y : S1x128x1.Idx) (i : S64x128x1.Idx)
    (hi0 : (i 0).val = t.val / 4) (hi1 : (i 1).val = (y 1).val) :
    (outAt0 V c t).2 y = newZ (karr V c) (zarr V c) i := by
  have h0 : ¬t.val % 4 = 0 := by omega
  obtain ⟨g, d, b, rfl⟩ : ∃ (g : Fin 64) (d : Fin 128) (b : Fin 1), i = ix3 g d b := ⟨i 0, i 1, i 2, eq_ix3 i⟩
  obtain ⟨a, d', b', rfl⟩ : ∃ (a : Fin 1) (d' : Fin 128) (b' : Fin 1), y = ix3 a d' b' := ⟨y 0, y 1, y 2, eq_ix3 y⟩
  obtain rfl : (0 : Fin 1) = a := Subsingleton.elim _ _
  obtain rfl : (0 : Fin 1) = b := Subsingleton.elim _ _
  obtain rfl : (0 : Fin 1) = b' := Subsingleton.elim _ _
  obtain rfl : d = d' := Fin.ext hi1
  have hg : g.val = t.val / 4 := hi0
  have e1 : (prevPt t).val = t.val - 1 := rfl
  have e2 : (prevPt (prevPt t)).val = t.val - 1 - 1 := rfl
  have e3 : (prevPt (prevPt (prevPt t))).val = t.val - 1 - 1 - 1 := rfl
  rw [outAt0_C V c t h0 h3, oC_eq V c t h0 h3 _, ← accAt0_C V c t h0 h3]
  refine (outZ_apply (accZ V c t.val t.isLt) d).trans ?_
  rw [accZ_last V c t h3 d,
    tileZ_eq V c (prevPt (prevPt (prevPt t))) g 0 (by omega) (by show 0 = _; omega) d,
    tileZ_eq V c (prevPt (prevPt t)) g 1 (by omega) (by show 1 = _; omega) d,
    tileZ_eq V c (prevPt t) g 2 (by omega) (by show 2 = _; omega) d,
    tileZ_eq V c t g 3 hg (by show 3 = _; omega) d,
    zblk_apply V c (prevPt (prevPt (prevPt t))) d g (by omega)]
  exact acc_tiles (zarr V c (ix3 g d (0 : Fin 1))) (fun s => sg (karr V c (ix3 g s d)))

/-- What the write-back at a head's last tile writes is that head's block of the new memory matrices. -/
theorem flushed4_eq (c : Dev nD) (t : Fin cfg0.N) (hf : (cfg0.win 4).flush t = true) :
    (dat0 V c).flushed 4 t
      = ((cfg0.win 4).blk t).view.read (Elt Ideal) (newM (V c main_v1) (V c main_v2) (V c main_v3) (V c main_v4)) := by
  have h3 : t.val % 4 = 3 := (flush0_4 t).mp hf
  obtain ⟨-, -, -, -, -, -, -, -, -, -, -, -, e0, e1, e2, -⟩ := idx0 t
  show (cfg0.win 4).cut (cfg0.grid.coords t) ((dat0 V c).after 4 t) = _
  rw [after0_4]
  funext y
  have hy0 : (y 0).val < 1 := (y 0).isLt
  refine out4_pt V c t h3 ((cfg0.win 4).xinj (cfg0.grid.coords t) y) (((cfg0.win 4).blk t).view.emb y) ?_ ?_ ?_
  · show win0_4.index t (0 : Fin 3) * 1 + 1 * (y 0).val = t.val / 4; omega
  · show win0_4.index t (1 : Fin 3) * 128 + 1 * (y 1).val = (y 1).val; omega
  · show win0_4.index t (2 : Fin 3) * 128 + 1 * (y 2).val = (y 2).val; omega

theorem flushed5_eq (c : Dev nD) (t : Fin cfg0.N) (hf : (cfg0.win 5).flush t = true) :
    (dat0 V c).flushed 5 t = ((cfg0.win 5).blk t).view.read (Elt Ideal) (newZ (V c main_v1) (V c main_v4)) := by
  have h3 : t.val % 4 = 3 := (flush0_5 t).mp hf
  obtain ⟨-, -, -, -, -, -, -, -, -, -, -, -, -, -, -, e0, e1, e2⟩ := idx0 t
  show (cfg0.win 5).cut (cfg0.grid.coords t) ((dat0 V c).after 5 t) = _
  rw [after0_5]
  funext y
  have hy0 : (y 0).val < 1 := (y 0).isLt
  refine out5_pt V c t h3 ((cfg0.win 5).xinj (cfg0.grid.coords t) y) (((cfg0.win 5).blk t).view.emb y) ?_ ?_
  · show win0_5.index t (0 : Fin 3) * 1 + 1 * (y 0).val = t.val / 4; omega
  · show win0_5.index t (1 : Fin 3) * 128 + 1 * (y 1).val = (y 1).val; omega

/-! ## The blocks of the 64 heads cover the arrays -/

/-- The last tile of head g. -/
def lastPt (g : ℕ) (hg : g < 64) : Fin cfg0.N := ⟨4 * g + 3, by rw [show cfg0.N = 256 from N_0]; omega⟩

/-- Every index of the memory array is in the block its head's last tile writes back. -/
theorem cover4 (i : S64x128x128.Idx) :
    ∃ t : Fin cfg0.N, (cfg0.win 4).flush t = true ∧ i ∈ ((cfg0.win 4).blk t).view.set := by
  have hi0 : (i 0).val < 64 := (i 0).isLt
  have hi1 : (i 1).val < 128 := (i 1).isLt
  have hi2 : (i 2).val < 128 := (i 2).isLt
  have ht : (lastPt (i 0).val hi0).val = 4 * (i 0).val + 3 := rfl
  obtain ⟨-, -, -, -, -, -, -, -, -, -, -, -, e0, e1, e2, -⟩ := idx0 (lastPt (i 0).val hi0)
  refine ⟨lastPt (i 0).val hi0, (flush0_4 _).mpr (by omega), ?_⟩
  show i ∈ ((View.whole main_v5_0).slice (win0_4.rect (lastPt (i 0).val hi0))).set
  rw [View.set_slice_whole, Rect.mem_set_unit]
  intro a
  match a with
  | ⟨0, _⟩ =>
    show win0_4.index (lastPt (i 0).val hi0) (0 : Fin 3) * 1 ≤ (i 0).val
      ∧ (i 0).val < win0_4.index (lastPt (i 0).val hi0) (0 : Fin 3) * 1 + 1
    omega
  | ⟨1, _⟩ =>
    show win0_4.index (lastPt (i 0).val hi0) (1 : Fin 3) * 128 ≤ (i 1).val
      ∧ (i 1).val < win0_4.index (lastPt (i 0).val hi0) (1 : Fin 3) * 128 + 128
    omega
  | ⟨2, _⟩ =>
    show win0_4.index (lastPt (i 0).val hi0) (2 : Fin 3) * 128 ≤ (i 2).val
      ∧ (i 2).val < win0_4.index (lastPt (i 0).val hi0) (2 : Fin 3) * 128 + 128
    omega

/-- Every index of the normaliser array is in the block its head's last tile writes back. -/
theorem cover5 (i : S64x128x1.Idx) :
    ∃ t : Fin cfg0.N, (cfg0.win 5).flush t = true ∧ i ∈ ((cfg0.win 5).blk t).view.set := by
  have hi0 : (i 0).val < 64 := (i 0).isLt
  have hi1 : (i 1).val < 128 := (i 1).isLt
  have hi2 : (i 2).val < 1 := (i 2).isLt
  have ht : (lastPt (i 0).val hi0).val = 4 * (i 0).val + 3 := rfl
  obtain ⟨-, -, -, -, -, -, -, -, -, -, -, -, -, -, -, e0, e1, e2⟩ := idx0 (lastPt (i 0).val hi0)
  refine ⟨lastPt (i 0).val hi0, (flush0_5 _).mpr (by omega), ?_⟩
  show i ∈ ((View.whole main_v5_1).slice (win0_5.rect (lastPt (i 0).val hi0))).set
  rw [View.set_slice_whole, Rect.mem_set_unit]
  intro a
  match a with
  | ⟨0, _⟩ =>
    show win0_5.index (lastPt (i 0).val hi0) (0 : Fin 3) * 1 ≤ (i 0).val
      ∧ (i 0).val < win0_5.index (lastPt (i 0).val hi0) (0 : Fin 3) * 1 + 1
    omega
  | ⟨1, _⟩ =>
    show win0_5.index (lastPt (i 0).val hi0) (1 : Fin 3) * 128 ≤ (i 1).val
      ∧ (i 1).val < win0_5.index (lastPt (i 0).val hi0) (1 : Fin 3) * 128 + 128
    omega
  | ⟨2, _⟩ =>
    show win0_5.index (lastPt (i 0).val hi0) (2 : Fin 3) * 1 ≤ (i 2).val
      ∧ (i 2).val < win0_5.index (lastPt (i 0).val hi0) (2 : Fin 3) * 1 + 1
    omega

end Entry

end Vals0

/-! ## The two result arrays -/

section Entry
variable (V : (c : Dev nD) → (b : Ref sig .tc) → Buf (Elt Ideal) ((c : Thread nD τ).loc b))
open Vals0

/-- The updated memory matrices: what the update region leaves in its first result array. -/
theorem arr0_4 (c : Dev nD) :
    ((dat0 (F := Ideal) V c).arrAt 4 cfg0.N : S64x128x128.Idx → EReal) = newM (V c main_v1) (V c main_v2) (V c main_v3) (V c main_v4) :=
  (dat0 V c).arrAt_eq_of_cover 4 (newM (V c main_v1) (V c main_v2) (V c main_v3) (V c main_v4))
    (fun t hf => flushed4_eq V c t hf) (fun i => cover4 i)

/-- The updated normalisers: what the update region leaves in its second result array. -/
theorem arr0_5 (c : Dev nD) :
    ((dat0 (F := Ideal) V c).arrAt 5 cfg0.N : S64x128x1.Idx → EReal) = newZ (V c main_v1) (V c main_v4) :=
  (dat0 V c).arrAt_eq_of_cover 5 (newZ (V c main_v1) (V c main_v4))
    (fun t hf => flushed5_eq V c t hf) (fun i => cover5 i)

end Entry
end Cert.KernelIdeal.Hand
end
-- ==== Proof.KI.Vals1.lean ====
/- The retrieve region's result array after all 256 points. Point t writes rows 1024·(t % 4) … of head t / 4; each
   element is the retrieval of that query row from the head's memory matrix and normaliser as the region found
   them. Every block is written exactly once and the 256 blocks cover the array. -/
import proofs.«172453_j88390426951900_1_alg».proof.Proof.KI.Pieces
import proofs.«172453_j88390426951900_1_alg».proof.Proof.KI.PayIdx

set_option maxRecDepth 16384

noncomputable section

open scoped BigOperators

namespace Cert.KernelIdeal.Hand

open Cert.KernelIdeal Cert.KernelIdeal.Gen Cert.Spec
open Idealize.ShloMosaic Idealize.ShloMosaic.TcCoe Idealize.ShloMosaic.ValueIdx
open Idealize.SL.Sem
open Idealize.ShloMosaic.Pipeline (Dat)

/-! ## Where the retrieve kernel's blocks sit -/

/-- The block indices of the four windows at every point: the query and output windows are at
    (t / 4, t % 4, 0), the memory matrix and the normaliser at (t / 4, 0, 0). -/
theorem idx1 : ∀ t : Fin cfg1.N,
    win1_0.index t (0 : Fin 3) = t.val / 4 ∧ win1_0.index t (1 : Fin 3) = t.val % 4 ∧ win1_0.index t (2 : Fin 3) = 0
    ∧ win1_1.index t (0 : Fin 3) = t.val / 4 ∧ win1_1.index t (1 : Fin 3) = 0 ∧ win1_1.index t (2 : Fin 3) = 0
    ∧ win1_2.index t (0 : Fin 3) = t.val / 4 ∧ win1_2.index t (1 : Fin 3) = 0 ∧ win1_2.index t (2 : Fin 3) = 0
    ∧ win1_3.index t (0 : Fin 3) = t.val / 4 ∧ win1_3.index t (1 : Fin 3) = t.val % 4 ∧ win1_3.index t (2 : Fin 3) = 0 :=
  (by decide +kernel : ∀ t : Fin grid1.N, _)

/-- The head point t works on. -/
def head1 (t : Fin cfg1.N) : Fin 64 := ⟨t.val / 4, by have h := t.isLt; have hN : cfg1.N = 256 := N_1; omega⟩
/-- The tile of the head's 4096 rows point t works on. -/
def tile1 (t : Fin cfg1.N) : Fin 4 := ⟨t.val % 4, Nat.mod_lt _ (by decide)⟩

/-- Element (0, r, e) of the query window's block at point t is at (t / 4, 1024·(t % 4) + r, e) of the queries. -/
theorem emb1_0 (t : Fin cfg1.N) (r : Fin 1024) (e : Fin 128) :
    (((cfg1.win 0).blk t).view.emb (ix3 (0 : Fin 1) r e) : S64x4096x128.Idx) = ix3 (head1 t) (tileRow (tile1 t) r) e := by
  obtain ⟨a0, a1, a2, -⟩ := idx1 t
  funext a; apply Fin.ext
  match a with
  | ⟨0, _⟩ => show win1_0.index t (0 : Fin 3) * 1 + 1 * 0 = t.val / 4; omega
  | ⟨1, _⟩ => show win1_0.index t (1 : Fin 3) * 1024 + 1 * r.val = 1024 * (t.val % 4) + r.val; omega
  | ⟨2, _⟩ => show win1_0.index t (2 : Fin 3) * 128 + 1 * e.val = e.val; omega

/-- Element (0, d, e) of the memory window's block at point t is at (t / 4, d, e) of the memory matrices. -/
theorem emb1_1 (t : Fin cfg1.N) (d e : Fin 128) :
    (((cfg1.win 1).blk t).view.emb (ix3 (0 : Fin 1) d e) : S64x128x128.Idx) = ix3 (head1 t) d e := by
  obtain ⟨-, -, -, a0, a1, a2, -⟩ := idx1 t
  funext a; apply Fin.ext
  match a with
  | ⟨0, _⟩ => show win1_1.index t (0 : Fin 3) * 1 + 1 * 0 = t.val / 4; omega
  | ⟨1, _⟩ => show win1_1.index t (1 : Fin 3) * 128 + 1 * d.val = d.val; omega
  | ⟨2, _⟩ => show win1_1.index t (2 : Fin 3) * 128 + 1 * e.val = e.val; omega

/-- Element (0, d, 0) of the normaliser window's block at point t is at (t / 4, d, 0) of the normalisers. -/
theorem emb1_2 (t : Fin cfg1.N) (d : Fin 128) :
    (((cfg1.win 2).blk t).view.emb (ix3 (0 : Fin 1) d (0 : Fin 1)) : S64x128x1.Idx) = ix3 (head1 t) d (0 : Fin 1) := by
  obtain ⟨-, -, -, -, -, -, a0, a1, a2, -⟩ := idx1 t
  funext a; apply Fin.ext
  match a with
  | ⟨0, _⟩ => show win1_2.index t (0 : Fin 3) * 1 + 1 * 0 = t.val / 4; omega
  | ⟨1, _⟩ => show win1_2.index t (1 : Fin 3) * 128 + 1 * d.val = d.val; omega
  | ⟨2, _⟩ => show win1_2.index t (2 : Fin 3) * 1 + 1 * 0 = 0; omega

/-- Element (0, r, e) of the output window's block at point t is at (t / 4, 1024·(t % 4) + r, e) of the result. -/
theorem emb1_3 (t : Fin cfg1.N) (r : Fin 1024) (e : Fin 128) :
    (((cfg1.win 3).blk t).view.emb (ix3 (0 : Fin 1) r e) : S64x4096x128.Idx) = ix3 (head1 t) (tileRow (tile1 t) r) e := by
  obtain ⟨-, -, -, -, -, -, -, -, -, a0, a1, a2⟩ := idx1 t
  funext a; apply Fin.ext
  match a with
  | ⟨0, _⟩ => show win1_3.index t (0 : Fin 3) * 1 + 1 * 0 = t.val / 4; omega
  | ⟨1, _⟩ => show win1_3.index t (1 : Fin 3) * 1024 + 1 * r.val = 1024 * (t.val % 4) + r.val; omega
  | ⟨2, _⟩ => show win1_3.index t (2 : Fin 3) * 128 + 1 * e.val = e.val; omega

/-- Every index of a [1, 1024, 128] block is (0, r, e). -/
theorem blk_ix3 (x : S1x1024x128.Idx) : ∃ (r : Fin 1024) (e : Fin 128), x = ix3 (0 : Fin 1) r e :=
  ⟨x 1, x 2, funext fun a => by
    match a with
    | ⟨0, _⟩ => exact Fin.ext (by show (x 0).val = 0; have h : (x 0).val < 1 := (x 0).isLt; omega)
    | ⟨1, _⟩ => rfl
    | ⟨2, _⟩ => rfl⟩

/-- The retrieval at (g, s, e), written out. -/
theorem retr_ix3 (Q : T3.Idx → EReal) (M : M3.Idx → EReal) (Z : Z3.Idx → EReal) (g : Fin 64) (s : Fin 4096) (e : Fin 128) :
    retr Q M Z (ix3 g s e) = Ideal.div (∑ d : Fin 128, sg (Q (ix3 g s d)) * M (ix3 g d e))
      ((∑ d : Fin 128, sg (Q (ix3 g s d)) * Z (ix3 g d (0 : Fin 1))) + eps) := rfl

section Entry
variable (V : (c : Dev nD) → (b : Ref sig .tc) → Buf (Elt Ideal) ((c : Thread nD τ).loc b))

/-! ## The three input blocks and arrays, at their literal types -/

abbrev qblk (c : Dev nD) (t : Fin cfg1.N) : FVec Ideal S1x1024x128 .f32 := iblk1 V c 0 t
abbrev mblk (c : Dev nD) (t : Fin cfg1.N) : FVec Ideal S1x128x128 .f32 := iblk1 V c 1 t
abbrev zblk (c : Dev nD) (t : Fin cfg1.N) : FVec Ideal S1x128x1 .f32 := iblk1 V c 2 t
abbrev qarr (c : Dev nD) : S64x4096x128.Idx → EReal := V c main_v0
abbrev marr (c : Dev nD) : S64x128x128.Idx → EReal := V c main_v5_0
abbrev zarr (c : Dev nD) : S64x128x1.Idx → EReal := V c main_v5_1

/-- The result array's specification, at the array's own type. -/
abbrev outG (c : Dev nD) : Buf (Elt Ideal) ((c : Thread nD τ).loc main_v6) :=
  retr (V c main_v0) (V c main_v5_0) (V c main_v5_1)

/-- The query block at point t is rows 1024·(t % 4) … of head t / 4 of the queries. -/
theorem qblk_apply (c : Dev nD) (t : Fin cfg1.N) (r : Fin 1024) (d : Fin 128) :
    qblk V c t (ix3 (0 : Fin 1) r d) = qarr V c (ix3 (head1 t) (tileRow (tile1 t) r) d) := by
  show (((cfg1.win 0).blk t).view.read (Elt Ideal) (V c (Pipeline.arrRef spec1 0))) (ix3 (0 : Fin 1) r d) = _
  rw [View.read_apply]
  show V c main_v0 (((cfg1.win 0).blk t).view.emb (ix3 (0 : Fin 1) r d)) = V c main_v0 (ix3 (head1 t) (tileRow (tile1 t) r) d)
  exact congrArg (V c main_v0) (emb1_0 t r d)

/-- The memory block at point t is head t / 4 of the memory matrices. -/
theorem mblk_apply (c : Dev nD) (t : Fin cfg1.N) (d e : Fin 128) :
    mblk V c t (ix3 (0 : Fin 1) d e) = marr V c (ix3 (head1 t) d e) := by
  show (((cfg1.win 1).blk t).view.read (Elt Ideal) (V c (Pipeline.arrRef spec1 1))) (ix3 (0 : Fin 1) d e) = _
  rw [View.read_apply]
  show V c main_v5_0 (((cfg1.win 1).blk t).view.emb (ix3 (0 : Fin 1) d e)) = V c main_v5_0 (ix3 (head1 t) d e)
  exact congrArg (V c main_v5_0) (emb1_1 t d e)

/-- The normaliser block at point t is head t / 4 of the normalisers. -/
theorem zblk_apply (c : Dev nD) (t : Fin cfg1.N) (d : Fin 128) :
    zblk V c t (ix3 (0 : Fin 1) d (0 : Fin 1)) = zarr V c (ix3 (head1 t) d (0 : Fin 1)) := by
  show (((cfg1.win 2).blk t).view.read (Elt Ideal) (V c (Pipeline.arrRef spec1 2))) (ix3 (0 : Fin 1) d (0 : Fin 1)) = _
  rw [View.read_apply]
  show V c main_v5_1 (((cfg1.win 2).blk t).view.emb (ix3 (0 : Fin 1) d (0 : Fin 1))) = V c main_v5_1 (ix3 (head1 t) d (0 : Fin 1))
  exact congrArg (V c main_v5_1) (emb1_2 t d)

/-! ## What a point writes back -/

/-- Row r, column e of what point t computes is the retrieval of query row 1024·(t % 4) + r of head t / 4. -/
theorem point_eq (c : Dev nD) (t : Fin cfg1.N) (r : Fin 1024) (e : Fin 128) :
    k1_pay1 (F := Ideal) (qblk V c t) (mblk V c t) (zblk V c t) (ix3 (0 : Fin 1) r e)
      = retr (qarr V c) (marr V c) (zarr V c) (ix3 (head1 t) (tileRow (tile1 t) r) e) := by
  refine (retr_apply (qblk V c t) (mblk V c t) (zblk V c t) r e).trans ?_
  rw [retr_ix3]
  refine congrArg₂ Ideal.div (Finset.sum_congr rfl fun d _ => ?_) (congrArg (· + eps) (Finset.sum_congr rfl fun d _ => ?_))
  · rw [qblk_apply V c t r d, mblk_apply V c t d e]
  · rw [qblk_apply V c t r d, zblk_apply V c t d]

/-- So every element of point t's block is the specification at the place the block's element has in the array. -/
theorem point_blk (c : Dev nD) (t : Fin cfg1.N) (x : S1x1024x128.Idx) :
    k1_pay1 (F := Ideal) (qblk V c t) (mblk V c t) (zblk V c t) x = outG V c (((cfg1.win 3).blk t).view.emb x) := by
  obtain ⟨r, e, rfl⟩ := blk_ix3 x
  show _ = retr (qarr V c) (marr V c) (zarr V c) (((cfg1.win 3).blk t).view.emb (ix3 (0 : Fin 1) r e))
  exact (point_eq V c t r e).trans (congrArg (retr (qarr V c) (marr V c) (zarr V c)) (emb1_3 t r e).symm)

/-- WHAT POINT t WRITES BACK is block t of the specification's array. -/
theorem flushed1_3 (c : Dev nD) (t : Fin cfg1.N) :
    (dat1 (F := Ideal) V c).flushed 3 t = ((cfg1.win 3).blk t).view.read (Elt Ideal) (outG V c) := by
  show (cfg1.win 3).cut (cfg1.grid.coords t) ((dat1 (F := Ideal) V c).after 3 t) = _
  rw [after1_3, out1_3_eq]
  funext j
  exact point_blk V c t j

/-! ## The blocks cover the array -/

/-- An index of the array is in point t's block iff each coordinate is in the block's range on its axis. -/
theorem mem_blk1_3 (t : Fin cfg1.N) (i : S64x4096x128.Idx) :
    i ∈ ((cfg1.win 3).blk t).view.set ↔ ∀ a : Fin 3, win1_3.index t a * S1x1024x128.size a ≤ (i a).val ∧ (i a).val < win1_3.index t a * S1x1024x128.size a + S1x1024x128.size a := by
  show i ∈ ((View.whole main_v6).slice (win1_3.rect t)).set ↔ _
  rw [View.set_slice_whole, Rect.mem_set_unit]
  exact Iff.rfl

/-- Index (g, s, e) is in the block of point 4 g + s / 1024, and every point writes its block back. -/
theorem covered1_3 (i : S64x4096x128.Idx) :
    ∃ t : Fin cfg1.N, (cfg1.win 3).flush t = true ∧ i ∈ ((cfg1.win 3).blk t).view.set := by
  have h0 : (i 0).val < 64 := (i 0).isLt
  have h1 : (i 1).val < 4096 := (i 1).isLt
  have h2 : (i 2).val < 128 := (i 2).isLt
  have hN : cfg1.N = 256 := N_1
  obtain ⟨t, ht⟩ : ∃ t : Fin cfg1.N, t.val = 4 * (i 0).val + (i 1).val / 1024 :=
    ⟨⟨4 * (i 0).val + (i 1).val / 1024, hN ▸ (by omega : 4 * (i 0).val + (i 1).val / 1024 < 256)⟩, rfl⟩
  refine ⟨t, flush1_3 t, ?_⟩
  rw [mem_blk1_3]
  obtain ⟨-, -, -, -, -, -, -, -, -, a0, a1, a2⟩ := idx1 t
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1024 ≤ (i 1).val ∧ (i 1).val < win1_3.index t (1 : Fin 3) * 1024 + 1024; omega
  | ⟨2, _⟩ => show win1_3.index t (2 : Fin 3) * 128 ≤ (i 2).val ∧ (i 2).val < win1_3.index t (2 : Fin 3) * 128 + 128; omega

/-- The retrieved rows: what the retrieve region leaves in its result array. -/
theorem arr1_3 (c : Dev nD) :
    ((dat1 (F := Ideal) V c).arrAt 3 cfg1.N : S64x4096x128.Idx → EReal) = retr (V c main_v0) (V c main_v5_0) (V c main_v5_1) :=
  (dat1 (F := Ideal) V c).arrAt_eq_of_cover 3 (outG V c) (fun t _ => flushed1_3 V c t) covered1_3

end Entry

end Cert.KernelIdeal.Hand

end
-- ==== Proof.KI.Host.lean ====
/- The program around the two regions. Before them each argument is re-laid with its two head axes merged into one
   axis of 64; after them each result is split back into two head axes. Between the regions nothing touches the
   buffers, so the retrieve region finds the queries as re-laid and the update region's two result arrays as that
   region left them. Reading the three result buffers at the end through this chain: each is the specification of the
   re-laid arguments, split back. -/
import proofs.«172453_j88390426951900_1_alg».proof.Proof.KI.Run
import proofs.«172453_j88390426951900_1_alg».proof.Proof.KI.Vals0
import proofs.«172453_j88390426951900_1_alg».proof.Proof.KI.Vals1
import Idealize.ShloMosaic.Lib.StableHlo.Run

set_option maxRecDepth 16384

noncomputable section

open scoped BigOperators

namespace Cert.KernelIdeal.Hand

open Cert.KernelIdeal Cert.KernelIdeal.Gen Cert.Spec
open Idealize.ShloMosaic Idealize.ShloMosaic.TcCoe Idealize.ShloMosaic.ValueIdx
open Idealize.SL.Sem
open Idealize.ShloMosaic.Pipeline (Dat)
variable (m : (ℓ : Loc nD τ sig) → Buf (Elt Ideal) ℓ) (ρ : Dev nD → PrngReg)

/-! ## The arguments with their head axes merged -/

/-- Argument 0, heads merged. -/
abbrev flat0 (c : Dev nD) : S64x4096x128.Idx → EReal :=
  shapeCast S64x4096x128 (m ((c : Thread nD τ).loc main_arg0)) shapeCasts_S4x16x4096x128_S64x4096x128
theorem V1_v0 (c : Dev nD) : V1 m ρ c main_v0 = flat0 m c := by
  show StableHlo.after hostOps0 (W0 m ρ c) (Proc.devRef .tc main_v0) = _
  after_results
  rfl

/-- Argument 1, heads merged. -/
abbrev flat1 (c : Dev nD) : S64x4096x128.Idx → EReal :=
  shapeCast S64x4096x128 (m ((c : Thread nD τ).loc main_arg1)) shapeCasts_S4x16x4096x128_S64x4096x128
theorem V1_v1 (c : Dev nD) : V1 m ρ c main_v1 = flat1 m c := by
  show StableHlo.after hostOps0 (W0 m ρ c) (Proc.devRef .tc main_v1) = _
  after_results
  rfl

/-- Argument 2, heads merged. -/
abbrev flat2 (c : Dev nD) : S64x4096x128.Idx → EReal :=
  shapeCast S64x4096x128 (m ((c : Thread nD τ).loc main_arg2)) shapeCasts_S4x16x4096x128_S64x4096x128
theorem V1_v2 (c : Dev nD) : V1 m ρ c main_v2 = flat2 m c := by
  show StableHlo.after hostOps0 (W0 m ρ c) (Proc.devRef .tc main_v2) = _
  after_results
  rfl

/-- Argument 3, heads merged. -/
abbrev flat3 (c : Dev nD) : S64x128x128.Idx → EReal :=
  shapeCast S64x128x128 (m ((c : Thread nD τ).loc main_arg3)) shapeCasts_S4x16x128x128_S64x128x128
theorem V1_v3 (c : Dev nD) : V1 m ρ c main_v3 = flat3 m c := by
  show StableHlo.after hostOps0 (W0 m ρ c) (Proc.devRef .tc main_v3) = _
  after_results
  rfl

/-- Argument 4, heads merged. -/
abbrev flat4 (c : Dev nD) : S64x128x1.Idx → EReal :=
  shapeCast S64x128x1 (m ((c : Thread nD τ).loc main_arg4)) shapeCasts_S4x16x128x1_S64x128x1
theorem V1_v4 (c : Dev nD) : V1 m ρ c main_v4 = flat4 m c := by
  show StableHlo.after hostOps0 (W0 m ρ c) (Proc.devRef .tc main_v4) = _
  after_results
  rfl

/-! ## The update region's results, as the retrieve region and the end find them -/

theorem W2_v5_0 (c : Dev nD) :
    W2 m ρ c (Proc.devRef .tc main_v5_0) = newM (flat1 m c) (flat2 m c) (flat3 m c) (flat4 m c) := by
  rw [← V1_v1 m ρ c, ← V1_v2 m ρ c, ← V1_v3 m ρ c, ← V1_v4 m ρ c]
  exact (W2_arr m ρ c 4).trans (arr0_4 (V1 m ρ) c)

theorem W2_v5_1 (c : Dev nD) :
    W2 m ρ c (Proc.devRef .tc main_v5_1) = newZ (flat1 m c) (flat4 m c) := by
  rw [← V1_v1 m ρ c, ← V1_v4 m ρ c]
  exact (W2_arr m ρ c 5).trans (arr0_5 (V1 m ρ) c)

theorem W2_v0 (c : Dev nD) : W2 m ρ c (Proc.devRef .tc main_v0) = flat0 m c :=
  (W2_of_ne m ρ c main_v0 (by decide)).trans (V1_v0 m ρ c)

/-- The retrieve region only reads the update region's results: they reach the end unchanged. -/
theorem W3_v5_0 (c : Dev nD) : W3 m ρ c (Proc.devRef .tc main_v5_0) = W2 m ρ c (Proc.devRef .tc main_v5_0) :=
  (W3_arr m ρ c 1).trans (((dat1 (V2 m ρ) c).arrAt_in 1 rfl _).trans (A_eq1 (V2 m ρ) c 1))
theorem W3_v5_1 (c : Dev nD) : W3 m ρ c (Proc.devRef .tc main_v5_1) = W2 m ρ c (Proc.devRef .tc main_v5_1) :=
  (W3_arr m ρ c 2).trans (((dat1 (V2 m ρ) c).arrAt_in 2 rfl _).trans (A_eq1 (V2 m ρ) c 2))

/-- The retrieved rows, heads merged. -/
theorem W3_v6 (c : Dev nD) :
    W3 m ρ c (Proc.devRef .tc main_v6)
      = retr (flat0 m c) (newM (flat1 m c) (flat2 m c) (flat3 m c) (flat4 m c)) (newZ (flat1 m c) (flat4 m c)) := by
  rw [← W2_v5_0 m ρ c, ← W2_v5_1 m ρ c, ← W2_v0 m ρ c]
  exact (W3_arr m ρ c 3).trans (arr1_3 (V2 m ρ) c)

/-! ## The three results at the end -/

theorem res_v7 (c : Dev nD) :
    W4 m ρ c (Proc.devRef .tc main_v7)
      = shapeCast S4x16x4096x128 (retr (flat0 m c) (newM (flat1 m c) (flat2 m c) (flat3 m c) (flat4 m c)) (newZ (flat1 m c) (flat4 m c)))
          shapeCasts_S64x4096x128_S4x16x4096x128 := by
  rw [← W3_v6 m ρ c]
  show StableHlo.after hostOps2 (W3 m ρ c) (Proc.devRef .tc main_v7) = _
  after_results
  rfl

theorem res_v8 (c : Dev nD) :
    W4 m ρ c (Proc.devRef .tc main_v8)
      = shapeCast S4x16x128x128 (newM (flat1 m c) (flat2 m c) (flat3 m c) (flat4 m c)) shapeCasts_S64x128x128_S4x16x128x128 := by
  rw [← W2_v5_0 m ρ c, ← W3_v5_0 m ρ c]
  show StableHlo.after hostOps2 (W3 m ρ c) (Proc.devRef .tc main_v8) = _
  after_results
  rfl

theorem res_v9 (c : Dev nD) :
    W4 m ρ c (Proc.devRef .tc main_v9)
      = shapeCast S4x16x128x1 (newZ (flat1 m c) (flat4 m c)) shapeCasts_S64x128x1_S4x16x128x1 := by
  rw [← W2_v5_1 m ρ c, ← W3_v5_1 m ρ c]
  show StableHlo.after hostOps2 (W3 m ρ c) (Proc.devRef .tc main_v9) = _
  after_results
  rfl

end Cert.KernelIdeal.Hand

end
-- ==== Proof.RefGen.lean ====
/- The reference's generated run and its read-at-an-index lemmas, gathered in one place for the modules that read the
   reference's results index by index. -/
import proofs.«172453_j88390426951900_1_alg».proof.Proof.Gen.ReferenceIdeal.Run
import proofs.«172453_j88390426951900_1_alg».proof.Proof.Gen.ReferenceIdeal.Read
-- ==== Proof.RefVal.lean ====
/- The reference's three results, index by index, are the specification applied to its arguments with the two head
   axes merged, split back into two axes: at (b, h, ·, ·) every operand is read at head 16·b + h, and the reference's
   contractions over the 128 features and over the 4096 rows are the specification's sums; its reduction with initial
   value zero is the plain sum. -/
import proofs.«172453_j88390426951900_1_alg».proof.Proof.RefGen
import proofs.«172453_j88390426951900_1_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.Read Cert.Spec
open Idealize.ShloMosaic Idealize.ShloMosaic.TcCoe Idealize.ShloMosaic.ValueIdx

variable (hT : S4x16x4096x128.ShapeCasts T3) (hM : S4x16x128x128.ShapeCasts M3) (hZ : S4x16x128x1.ShapeCasts Z3)
variable (hT' : T3.ShapeCasts S4x16x4096x128) (hM' : M3.ShapeCasts S4x16x128x128) (hZ' : Z3.ShapeCasts S4x16x128x1)

/-! ## The two head axes merged into one, and split back -/

/-- Head h of batch b, in the merged axis of 64 heads. -/
def hd (b : Fin 4) (h : Fin 16) : Fin 64 := ⟨16 * b.val + h.val, by omega⟩

/-- A [64, m, n] array split back to [4, 16, m, n] reads, at (b, h, s, d), the operand at (16·b + h, s, d). -/
theorem split_apply {α : Type} {m n : ℕ} (X : (⟨3, ![64, m, n]⟩ : Shape).Idx → α)
    (hc : (⟨3, ![64, m, n]⟩ : Shape).ShapeCasts ⟨4, ![4, 16, m, n]⟩) (b : Fin 4) (h : Fin 16) (s : Fin m) (d : Fin n) :
    shapeCast ⟨4, ![4, 16, m, n]⟩ X hc (ix4 b h s d) = X (ix3 (hd b h) s d) :=
  shapeCast_apply X hc _ _ (by
    rw [Shape.rowMajor_val_four, Shape.rowMajor_val_three]
    show ((16 * b.val + h.val) * m + s.val) * n + d.val = ((b.val * 16 + h.val) * m + s.val) * n + d.val
    rw [Nat.mul_comm 16])

/-- A [4, 16, m, n] array with its two head axes merged reads, at (16·b + h, s, d), the operand at (b, h, s, d). -/
theorem merge_apply {α : Type} {m n : ℕ} (x : (⟨4, ![4, 16, m, n]⟩ : Shape).Idx → α)
    (hc : (⟨4, ![4, 16, m, n]⟩ : Shape).ShapeCasts ⟨3, ![64, m, n]⟩) (b : Fin 4) (h : Fin 16) (s : Fin m) (d : Fin n) :
    shapeCast ⟨3, ![64, m, n]⟩ x hc (ix3 (hd b h) s d) = x (ix4 b h s d) :=
  shapeCast_apply x hc _ _ (by
    rw [Shape.rowMajor_val_four, Shape.rowMajor_val_three]
    show ((b.val * 16 + h.val) * m + s.val) * n + d.val = ((16 * b.val + h.val) * m + s.val) * n + d.val
    rw [Nat.mul_comm 16])

/-! ## The specification at an index given by coordinates -/

theorem newM_ix3 (K V : T3.Idx → EReal) (M : M3.Idx → EReal) (Z : Z3.Idx → EReal) (g : Fin 64) (d e : Fin 128) :
    newM K V M Z (ix3 g d e) = M (ix3 g d e) + ∑ s : Fin 4096, sg (K (ix3 g s d)) * dv K V M Z g s e := rfl
theorem newZ_ix3 (K : T3.Idx → EReal) (Z : Z3.Idx → EReal) (g : Fin 64) (d : Fin 128) (u : Fin 1) :
    newZ K Z (ix3 g d u) = Z (ix3 g d (0 : Fin 1)) + ∑ s : Fin 4096, sg (K (ix3 g s d)) := rfl
theorem retr_ix3 (Q : T3.Idx → EReal) (M : M3.Idx → EReal) (Z : Z3.Idx → EReal) (g : Fin 64) (s : Fin 4096) (e : Fin 128) :
    retr Q M Z (ix3 g s e) = Ideal.div (∑ d : Fin 128, sg (Q (ix3 g s d)) * M (ix3 g d e))
      ((∑ d : Fin 128, sg (Q (ix3 g s d)) * Z (ix3 g d (0 : Fin 1))) + eps) := rfl

/-! ## The reference's stages at an index -/

/-- The reference's feature map of the keys is the specification's, element by element. -/
theorem v7_apply (x1 : FVec Ideal S4x16x4096x128 .f32) (j : S4x16x4096x128.Idx) :
    val_main_v7 (F := Ideal) x1 j = sg (x1 j) := by
  rw [val_main_v7_apply, val_main_v1_apply, val_main_v3_apply, val_main_v6_apply, val_main_v5_apply,
    val_main_v0_apply, val_main_v2_apply, val_main_v4_apply, val_main_cst_apply, val_main_cst_0_apply,
    val_main_cst_1_apply]
  rfl

/-- The reference's feature map of the queries is the specification's, element by element. -/
theorem v27_apply (x0 : FVec Ideal S4x16x4096x128 .f32) (j : S4x16x4096x128.Idx) :
    val_main_v27 (F := Ideal) x0 j = sg (x0 j) := by
  rw [val_main_v27_apply, val_main_v21_apply, val_main_v23_apply, val_main_v26_apply, val_main_v25_apply,
    val_main_v20_apply, val_main_v22_apply, val_main_v24_apply, val_main_cst_4_apply, val_main_cst_5_apply,
    val_main_cst_6_apply]
  rfl

/-- The old memory's prediction, as the reference contracts it over the 128 features. -/
theorem v8_apply (x1 : FVec Ideal S4x16x4096x128 .f32) (x3 : FVec Ideal S4x16x128x128 .f32)
    (b : Fin 4) (h : Fin 16) (s : Fin 4096) (e : Fin 128) :
    val_main_v8 (F := Ideal) x1 x3 (ix4 b h s e) = ∑ k : Fin 128, sg (x1 (ix4 b h s k)) * x3 (ix4 b h k e) := by
  rw [val_main_v8_apply]
  refine Finset.sum_congr rfl fun k _ => ?_
  rw [v7_apply]
  have el : lidx_main_v8 (ix4 b h s e) k = ix4 b h s k := funext fun a => by
    match a with | ⟨0, _⟩ => rfl | ⟨1, _⟩ => rfl | ⟨2, _⟩ => rfl | ⟨3, _⟩ => rfl
  have er : ridx_main_v8 (ix4 b h s e) k = ix4 b h k e := funext fun a => by
    match a with | ⟨0, _⟩ => rfl | ⟨1, _⟩ => rfl | ⟨2, _⟩ => rfl | ⟨3, _⟩ => rfl
  rw [el, er]

/-- The old normaliser applied to a row, as the reference contracts it over the 128 features. -/
theorem v9_apply (x1 : FVec Ideal S4x16x4096x128 .f32) (x4 : FVec Ideal S4x16x128x1 .f32)
    (b : Fin 4) (h : Fin 16) (s : Fin 4096) (u : Fin 1) :
    val_main_v9 (F := Ideal) x1 x4 (ix4 b h s u) = ∑ k : Fin 128, sg (x1 (ix4 b h s k)) * x4 (ix4 b h k (0 : Fin 1)) := by
  have eu : u = 0 := Subsingleton.elim _ _
  subst eu
  rw [val_main_v9_apply]
  refine Finset.sum_congr rfl fun k _ => ?_
  rw [v7_apply]
  have el : lidx_main_v9 (ix4 b h s (0 : Fin 1)) k = ix4 b h s k := funext fun a => by
    match a with | ⟨0, _⟩ => rfl | ⟨1, _⟩ => rfl | ⟨2, _⟩ => rfl | ⟨3, _⟩ => rfl
  have er : ridx_main_v9 (ix4 b h s (0 : Fin 1)) k = ix4 b h k (0 : Fin 1) := funext fun a => by
    match a with | ⟨0, _⟩ => rfl | ⟨1, _⟩ => rfl | ⟨2, _⟩ => rfl | ⟨3, _⟩ => rfl
  rw [el, er]

/-- The normaliser plus ε, broadcast along the 128 columns. -/
theorem v12_apply (x1 : FVec Ideal S4x16x4096x128 .f32) (x4 : FVec Ideal S4x16x128x1 .f32)
    (b : Fin 4) (h : Fin 16) (s : Fin 4096) (e : Fin 128) :
    val_main_v12 (F := Ideal) x1 x4 (ix4 b h s e)
      = (∑ k : Fin 128, sg (x1 (ix4 b h s k)) * x4 (ix4 b h k (0 : Fin 1))) + eps := by
  have ei : idx_main_v12 (ix4 b h s e) = ix4 b h s (0 : Fin 1) := funext fun a => by
    match a with | ⟨0, _⟩ => rfl | ⟨1, _⟩ => rfl | ⟨2, _⟩ => rfl | ⟨3, _⟩ => rfl
  rw [val_main_v12_apply, ei, val_main_v11_apply, v9_apply, val_main_v10_apply, val_main_cst_2_apply]
  rfl

/-- The delta-rule residual, as the reference computes it. -/
theorem v14_apply (x1 x2 : FVec Ideal S4x16x4096x128 .f32) (x3 : FVec Ideal S4x16x128x128 .f32)
    (x4 : FVec Ideal S4x16x128x1 .f32) (b : Fin 4) (h : Fin 16) (s : Fin 4096) (e : Fin 128) :
    val_main_v14 (F := Ideal) x1 x2 x3 x4 (ix4 b h s e)
      = x2 (ix4 b h s e) - Ideal.div (∑ k : Fin 128, sg (x1 (ix4 b h s k)) * x3 (ix4 b h k e))
          ((∑ k : Fin 128, sg (x1 (ix4 b h s k)) * x4 (ix4 b h k (0 : Fin 1))) + eps) := by
  rw [val_main_v14_apply, val_main_v13_apply, v8_apply, v12_apply]
  rfl

/-- The reference's new memory at (b, h, d, e): the old memory plus the contraction over the 4096 rows. -/
theorem v16_apply (x1 x2 : FVec Ideal S4x16x4096x128 .f32) (x3 : FVec Ideal S4x16x128x128 .f32)
    (x4 : FVec Ideal S4x16x128x1 .f32) (b : Fin 4) (h : Fin 16) (d e : Fin 128) :
    val_main_v16 (F := Ideal) x1 x2 x3 x4 (ix4 b h d e)
      = x3 (ix4 b h d e) + ∑ s : Fin 4096, sg (x1 (ix4 b h s d)) *
          (x2 (ix4 b h s e) - Ideal.div (∑ k : Fin 128, sg (x1 (ix4 b h s k)) * x3 (ix4 b h k e))
            ((∑ k : Fin 128, sg (x1 (ix4 b h s k)) * x4 (ix4 b h k (0 : Fin 1))) + eps)) := by
  rw [val_main_v16_apply, val_main_v15_apply]
  show x3 (ix4 b h d e) + _ = _
  congr 1
  refine Finset.sum_congr rfl fun s _ => ?_
  have el : lidx_main_v15 (ix4 b h d e) s = ix4 b h s d := funext fun a => by
    match a with | ⟨0, _⟩ => rfl | ⟨1, _⟩ => rfl | ⟨2, _⟩ => rfl | ⟨3, _⟩ => rfl
  have er : ridx_main_v15 (ix4 b h d e) s = ix4 b h s e := funext fun a => by
    match a with | ⟨0, _⟩ => rfl | ⟨1, _⟩ => rfl | ⟨2, _⟩ => rfl | ⟨3, _⟩ => rfl
  rw [el, er, v7_apply, v14_apply]

/-- The reference's new normaliser at (b, h, d, 0): the old one plus the sum over the 4096 rows, the reduction's
    initial value being zero. -/
theorem v19_apply (x1 : FVec Ideal S4x16x4096x128 .f32) (x4 : FVec Ideal S4x16x128x1 .f32)
    (b : Fin 4) (h : Fin 16) (d : Fin 128) (u : Fin 1) :
    val_main_v19 (F := Ideal) x1 x4 (ix4 b h d u)
      = x4 (ix4 b h d (0 : Fin 1)) + ∑ s : Fin 4096, sg (x1 (ix4 b h s d)) := by
  have eu : u = 0 := Subsingleton.elim _ _
  subst eu
  rw [val_main_v19_apply, val_main_v18_apply, val_main_v17_apply, val_main_cst_3_apply]
  show x4 (ix4 b h d (0 : Fin 1)) + (Ideal.ofBits .f32 0x00000000#32 + _) = _
  rw [Ideal.ofBits_zero_f32, zero_add]
  congr 1
  refine Finset.sum_congr rfl fun s _ => ?_
  have ei : idx_main_v17 (idx_main_v18 (ix4 b h d (0 : Fin 1))) s = ix4 b h s d := funext fun a => by
    match a with | ⟨0, _⟩ => rfl | ⟨1, _⟩ => rfl | ⟨2, _⟩ => rfl | ⟨3, _⟩ => rfl
  rw [ei, v7_apply]

/-- The retrieval's numerator, as the reference contracts it over the 128 features of the new memory. -/
theorem v28_apply (x0 x1 x2 : FVec Ideal S4x16x4096x128 .f32) (x3 : FVec Ideal S4x16x128x128 .f32)
    (x4 : FVec Ideal S4x16x128x1 .f32) (b : Fin 4) (h : Fin 16) (s : Fin 4096) (e : Fin 128) :
    val_main_v28 (F := Ideal) x0 x1 x2 x3 x4 (ix4 b h s e)
      = ∑ k : Fin 128, sg (x0 (ix4 b h s k)) * val_main_v16 (F := Ideal) x1 x2 x3 x4 (ix4 b h k e) := by
  rw [val_main_v28_apply]
  refine Finset.sum_congr rfl fun k _ => ?_
  rw [v27_apply]
  have el : lidx_main_v28 (ix4 b h s e) k = ix4 b h s k := funext fun a => by
    match a with | ⟨0, _⟩ => rfl | ⟨1, _⟩ => rfl | ⟨2, _⟩ => rfl | ⟨3, _⟩ => rfl
  have er : ridx_main_v28 (ix4 b h s e) k = ix4 b h k e := funext fun a => by
    match a with | ⟨0, _⟩ => rfl | ⟨1, _⟩ => rfl | ⟨2, _⟩ => rfl | ⟨3, _⟩ => rfl
  rw [el, er]

/-- The retrieval's denominator plus ε, broadcast along the 128 columns. -/
theorem v32_apply (x0 x1 : FVec Ideal S4x16x4096x128 .f32) (x4 : FVec Ideal S4x16x128x1 .f32)
    (b : Fin 4) (h : Fin 16) (s : Fin 4096) (e : Fin 128) :
    val_main_v32 (F := Ideal) x0 x1 x4 (ix4 b h s e)
      = (∑ k : Fin 128, sg (x0 (ix4 b h s k)) * val_main_v19 (F := Ideal) x1 x4 (ix4 b h k (0 : Fin 1))) + eps := by
  have ei : idx_main_v32 (ix4 b h s e) = ix4 b h s (0 : Fin 1) := funext fun a => by
    match a with | ⟨0, _⟩ => rfl | ⟨1, _⟩ => rfl | ⟨2, _⟩ => rfl | ⟨3, _⟩ => rfl
  rw [val_main_v32_apply, ei, val_main_v31_apply, val_main_v29_apply, val_main_v30_apply, val_main_cst_7_apply]
  show (∑ k : Fin 128, _) + eps = _
  congr 1
  refine Finset.sum_congr rfl fun k _ => ?_
  rw [v27_apply]
  have el : lidx_main_v29 (ix4 b h s (0 : Fin 1)) k = ix4 b h s k := funext fun a => by
    match a with | ⟨0, _⟩ => rfl | ⟨1, _⟩ => rfl | ⟨2, _⟩ => rfl | ⟨3, _⟩ => rfl
  have er : ridx_main_v29 (ix4 b h s (0 : Fin 1)) k = ix4 b h k (0 : Fin 1) := funext fun a => by
    match a with | ⟨0, _⟩ => rfl | ⟨1, _⟩ => rfl | ⟨2, _⟩ => rfl | ⟨3, _⟩ => rfl
  rw [el, er]

/-! ## The three results, index by index -/

/-- The reference's new memory at (b, h, d, e) is the specification's at head 16·b + h. -/
theorem ref_newM_ix (x1 x2 : FVec Ideal S4x16x4096x128 .f32) (x3 : FVec Ideal S4x16x128x128 .f32)
    (x4 : FVec Ideal S4x16x128x1 .f32) (b : Fin 4) (h : Fin 16) (d e : Fin 128) :
    val_main_v16 (F := Ideal) x1 x2 x3 x4 (ix4 b h d e)
      = newM (shapeCast T3 x1 hT) (shapeCast T3 x2 hT) (shapeCast M3 x3 hM) (shapeCast Z3 x4 hZ) (ix3 (hd b h) d e) := by
  have K_at : ∀ s d, shapeCast T3 x1 hT (ix3 (hd b h) s d) = x1 (ix4 b h s d) := fun s d => merge_apply x1 hT b h s d
  have V_at : ∀ s d, shapeCast T3 x2 hT (ix3 (hd b h) s d) = x2 (ix4 b h s d) := fun s d => merge_apply x2 hT b h s d
  have M_at : ∀ s d, shapeCast M3 x3 hM (ix3 (hd b h) s d) = x3 (ix4 b h s d) := fun s d => merge_apply x3 hM b h s d
  have Z_at : ∀ s d, shapeCast Z3 x4 hZ (ix3 (hd b h) s d) = x4 (ix4 b h s d) := fun s d => merge_apply x4 hZ b h s d
  rw [v16_apply, newM_ix3]
  simp only [dv, pred, nrm, K_at, V_at, M_at, Z_at]

/-- The reference's new normaliser at (b, h, d, 0) is the specification's at head 16·b + h. -/
theorem ref_newZ_ix (x1 : FVec Ideal S4x16x4096x128 .f32) (x4 : FVec Ideal S4x16x128x1 .f32)
    (b : Fin 4) (h : Fin 16) (d : Fin 128) (u : Fin 1) :
    val_main_v19 (F := Ideal) x1 x4 (ix4 b h d u)
      = newZ (shapeCast T3 x1 hT) (shapeCast Z3 x4 hZ) (ix3 (hd b h) d u) := by
  have K_at : ∀ s d, shapeCast T3 x1 hT (ix3 (hd b h) s d) = x1 (ix4 b h s d) := fun s d => merge_apply x1 hT b h s d
  have Z_at : ∀ s d, shapeCast Z3 x4 hZ (ix3 (hd b h) s d) = x4 (ix4 b h s d) := fun s d => merge_apply x4 hZ b h s d
  rw [v19_apply, newZ_ix3]
  simp only [K_at, Z_at]

/-- The reference's retrieved row at (b, h, s, e) is the specification's retrieval, at head 16·b + h, from the
    specification's new memory and new normaliser. -/
theorem ref_out_ix (x0 x1 x2 : FVec Ideal S4x16x4096x128 .f32) (x3 : FVec Ideal S4x16x128x128 .f32)
    (x4 : FVec Ideal S4x16x128x1 .f32) (b : Fin 4) (h : Fin 16) (s : Fin 4096) (e : Fin 128) :
    val_main_v33 (F := Ideal) x0 x1 x2 x3 x4 (ix4 b h s e)
      = retr (shapeCast T3 x0 hT)
          (newM (shapeCast T3 x1 hT) (shapeCast T3 x2 hT) (shapeCast M3 x3 hM) (shapeCast Z3 x4 hZ))
          (newZ (shapeCast T3 x1 hT) (shapeCast Z3 x4 hZ)) (ix3 (hd b h) s e) := by
  have Q_at : ∀ s d, shapeCast T3 x0 hT (ix3 (hd b h) s d) = x0 (ix4 b h s d) := fun s d => merge_apply x0 hT b h s d
  rw [val_main_v33_apply, v28_apply, v32_apply, retr_ix3]
  simp only [Q_at, ← ref_newM_ix hT hM hZ x1 x2 x3 x4 b h, ← ref_newZ_ix hT hZ x1 x4 b h]
  rfl

/-- The reference's new memory matrices. -/
theorem ref_newM (x1 x2 : FVec Ideal S4x16x4096x128 .f32) (x3 : FVec Ideal S4x16x128x128 .f32) (x4 : FVec Ideal S4x16x128x1 .f32) :
    val_main_v16 (F := Ideal) x1 x2 x3 x4
      = shapeCast S4x16x128x128 (newM (shapeCast T3 x1 hT) (shapeCast T3 x2 hT) (shapeCast M3 x3 hM) (shapeCast Z3 x4 hZ)) hM' := by
  funext i
  obtain ⟨b, h, d, e, rfl⟩ : ∃ b h d e, i = ix4 b h d e := ⟨i 0, i 1, i 2, i 3, eq_ix4 i⟩
  rw [split_apply]
  exact ref_newM_ix hT hM hZ x1 x2 x3 x4 b h d e

/-- The reference's new normalisers. -/
theorem ref_newZ (x1 : FVec Ideal S4x16x4096x128 .f32) (x4 : FVec Ideal S4x16x128x1 .f32) :
    val_main_v19 (F := Ideal) x1 x4 = shapeCast S4x16x128x1 (newZ (shapeCast T3 x1 hT) (shapeCast Z3 x4 hZ)) hZ' := by
  funext i
  obtain ⟨b, h, d, u, rfl⟩ : ∃ b h d u, i = ix4 b h d u := ⟨i 0, i 1, i 2, i 3, eq_ix4 i⟩
  rw [split_apply]
  exact ref_newZ_ix hT hZ x1 x4 b h d u

/-- The reference's retrieved rows. -/
theorem ref_out (x0 x1 x2 : FVec Ideal S4x16x4096x128 .f32) (x3 : FVec Ideal S4x16x128x128 .f32) (x4 : FVec Ideal S4x16x128x1 .f32) :
    val_main_v33 (F := Ideal) x0 x1 x2 x3 x4
      = shapeCast S4x16x4096x128 (retr (shapeCast T3 x0 hT)
          (newM (shapeCast T3 x1 hT) (shapeCast T3 x2 hT) (shapeCast M3 x3 hM) (shapeCast Z3 x4 hZ))
          (newZ (shapeCast T3 x1 hT) (shapeCast Z3 x4 hZ))) hT' := by
  funext i
  obtain ⟨b, h, s, e, rfl⟩ : ∃ b h s e, i = ix4 b h s e := ⟨i 0, i 1, i 2, i 3, eq_ix4 i⟩
  rw [split_apply]
  exact ref_out_ix hT hM hZ x0 x1 x2 x3 x4 b h s e

end Cert.ReferenceIdeal.RefValue

end
-- ==== Proof.lean ====
/- The certificate. The kernel is two pipelined regions between reshapes: an update region that, per head, adds
   four tiles' contributions onto the head's memory matrix and normaliser in two scratch buffers and writes them out
   on the head's last tile, and a retrieve region that reads them. Its frame (at the word level and at the ideal
   level, one text at both namespaces) is the run of its four segments with every buffer's contents named at each
   boundary; no segment writes an argument. Over the extended reals, the three results read off that run's last
   boundary are the specification (Proof/Spec.lean) of the arguments with their head axes merged, split back; the
   reference's run, read one operation at a time, gives the same three terms. The only law between the two sides is
   that the sum over a head's 4096 rows is the sum of its four tiles with the additions regrouped; finiteness of the
   inputs is not used. The ideal pass rewrote nothing, so there is nothing to preserve. -/
import proofs.«172453_j88390426951900_1_alg».proof.Defs
import proofs.«172453_j88390426951900_1_alg».proof.Proof.Gen.Kernel
import proofs.«172453_j88390426951900_1_alg».proof.Proof.Gen.KernelIdeal
import proofs.«172453_j88390426951900_1_alg».proof.Proof.Gen.ReferenceIdeal
import proofs.«172453_j88390426951900_1_alg».proof.Proof.Gen.Pre_finite_inputs
import proofs.«172453_j88390426951900_1_alg».proof.Proof.KB.Run
import proofs.«172453_j88390426951900_1_alg».proof.Proof.KI.Host
import proofs.«172453_j88390426951900_1_alg».proof.Proof.RefVal
import Idealize.ShloMosaic.Adequacy
import Idealize.ShloMosaic.Init

set_option maxRecDepth 16384

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_finite_inputs.Gen.facts

theorem frame_k : Cert.frame_Kernel := fun m ρ _ => Cert.Kernel.Hand.frame (F := Bits) m ρ

theorem frame_ki : Cert.frame_KernelIdeal := fun m ρ _ => Cert.KernelIdeal.Hand.frame (F := Ideal) m ρ

/-- The reference has no kernel: its frame is its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- Both programs end with the three results at the specification of the merged-head arguments, split back. -/
theorem algebraic : Cert.algebraic_KernelIdeal_ReferenceIdeal := by
  intro m ρ m' ρ' _ hagree
  refine ⟨fun c => Cert.KernelIdeal.Hand.W4 m ρ c (Proc.devRef .tc Cert.KernelIdeal.main_v7),
    fun c => Cert.KernelIdeal.Hand.W4 m ρ c (Proc.devRef .tc Cert.KernelIdeal.main_v8),
    fun c => Cert.KernelIdeal.Hand.W4 m ρ c (Proc.devRef .tc Cert.KernelIdeal.main_v9), ?_, ?_⟩
  · exact (θ_run Cert.KernelIdeal.defs _ _).mono (fun _ h c =>
      ⟨h c _ (Cert.KernelIdeal.Hand.mem_uc Cert.KernelIdeal.main_v7 (by decide)),
       h c _ (Cert.KernelIdeal.Hand.mem_uc Cert.KernelIdeal.main_v8 (by decide)),
       h c _ (Cert.KernelIdeal.Hand.mem_uc Cert.KernelIdeal.main_v9 (by decide)),
       (h c _ (Cert.KernelIdeal.Hand.mem_uc Cert.KernelIdeal.main_arg0 (by decide))).trans (Cert.KernelIdeal.Hand.W4_main_arg0 m ρ c),
       (h c _ (Cert.KernelIdeal.Hand.mem_uc Cert.KernelIdeal.main_arg1 (by decide))).trans (Cert.KernelIdeal.Hand.W4_main_arg1 m ρ c),
       (h c _ (Cert.KernelIdeal.Hand.mem_uc Cert.KernelIdeal.main_arg2 (by decide))).trans (Cert.KernelIdeal.Hand.W4_main_arg2 m ρ c),
       (h c _ (Cert.KernelIdeal.Hand.mem_uc Cert.KernelIdeal.main_arg3 (by decide))).trans (Cert.KernelIdeal.Hand.W4_main_arg3 m ρ c),
       (h c _ (Cert.KernelIdeal.Hand.mem_uc Cert.KernelIdeal.main_arg4 (by decide))).trans (Cert.KernelIdeal.Hand.W4_main_arg4 m ρ c)⟩)
      (Cert.KernelIdeal.Hand.run_all (F := Ideal) m ρ)
  · refine (θ_run Cert.ReferenceIdeal.defs _ _).mono (fun _ h c => ⟨(h c).1.trans ?_, (h c).2.1.trans ?_, (h c).2.2.1.trans ?_, (h c).2.2.2⟩)
      (Cert.ReferenceIdeal.Value.run (F := Ideal) m' ρ')
    · rw [Cert.ReferenceIdeal.Read.val_main_v33_eq,
        Cert.ReferenceIdeal.RefValue.ref_out Cert.KernelIdeal.Facts₀.shapeCasts_S4x16x4096x128_S64x4096x128 Cert.KernelIdeal.Facts₀.shapeCasts_S4x16x128x128_S64x128x128 Cert.KernelIdeal.Facts₀.shapeCasts_S4x16x128x1_S64x128x1 Cert.KernelIdeal.Facts₀.shapeCasts_S64x4096x128_S4x16x4096x128,
        (hagree c).1, (hagree c).2.1, (hagree c).2.2.1, (hagree c).2.2.2.1, (hagree c).2.2.2.2]
      exact (Cert.KernelIdeal.Hand.res_v7 m ρ c).symm
    · rw [Cert.ReferenceIdeal.Read.val_main_v16_eq,
        Cert.ReferenceIdeal.RefValue.ref_newM Cert.KernelIdeal.Facts₀.shapeCasts_S4x16x4096x128_S64x4096x128 Cert.KernelIdeal.Facts₀.shapeCasts_S4x16x128x128_S64x128x128 Cert.KernelIdeal.Facts₀.shapeCasts_S4x16x128x1_S64x128x1 Cert.KernelIdeal.Facts₀.shapeCasts_S64x128x128_S4x16x128x128,
        (hagree c).2.1, (hagree c).2.2.1, (hagree c).2.2.2.1, (hagree c).2.2.2.2]
      exact (Cert.KernelIdeal.Hand.res_v8 m ρ c).symm
    · rw [Cert.ReferenceIdeal.Read.val_main_v19_eq,
        Cert.ReferenceIdeal.RefValue.ref_newZ Cert.KernelIdeal.Facts₀.shapeCasts_S4x16x4096x128_S64x4096x128 Cert.KernelIdeal.Facts₀.shapeCasts_S4x16x128x1_S64x128x1 Cert.KernelIdeal.Facts₀.shapeCasts_S64x128x1_S4x16x128x1,
        (hagree c).2.1, (hagree c).2.2.2.2]
      exact (Cert.KernelIdeal.Hand.res_v9 m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
